-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x600000 32) (main_arg2 : FVec F S128x128 .f32) (main_arg3 : FVec F S128 .f32) (main_arg4 : FVec F S128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S5000x128 : Shape := ⟨2, ![5000, 128]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S600000x128 : Shape := ⟨2, ![600000, 128]⟩
abbrev S100000x1 : Shape := ⟨2, ![100000, 1]⟩
abbrev S1x128 : Shape := ⟨2, ![1, 128]⟩
abbrev S2x128 : Shape := ⟨2, ![2, 128]⟩

abbrev nBuf : Space → Nat
  | .hbm => 82
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000x128, .f32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S_, .f32⟩
  | .hbm, ⟨12, _⟩ => ⟨S600000, .f32⟩
  | .hbm, ⟨13, _⟩ => ⟨S_, .f32⟩
  | .hbm, ⟨14, _⟩ => ⟨S100000, .f32⟩
  | .hbm, ⟨15, _⟩ => ⟨S600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000, .f32⟩
  | .hbm, ⟨39, _⟩ => ⟨S600000, .f32⟩
  | .hbm, ⟨40, _⟩ => ⟨S_, .i32⟩
  | .hbm, ⟨41, _⟩ => ⟨S600000, .i32⟩
  | .hbm, ⟨42, _⟩ => ⟨S600000, .i1⟩
  | .hbm, ⟨43, _⟩ => ⟨S_, .i32⟩
  | .hbm, ⟨44, _⟩ => ⟨S600000, .i32⟩
  | .hbm, ⟨45, _⟩ => ⟨S600000, .i32⟩
  | .hbm, ⟨46, _⟩ => ⟨S600000, .i32⟩
  | .hbm, ⟨47, _⟩ => ⟨S600000x1, .i32⟩
  | .hbm, ⟨48, _⟩ => ⟨S600000x128, .f32⟩
  | .hbm, ⟨49, _⟩ => ⟨S600000x1, .f32⟩
  | .hbm, ⟨50, _⟩ => ⟨S600000x128, .f32⟩
  | .hbm, ⟨51, _⟩ => ⟨S600000x128, .f32⟩
  | .hbm, ⟨52, _⟩ => ⟨S_, .f32⟩
  | .hbm, ⟨53, _⟩ => ⟨S100000x128, .f32⟩
  | .hbm, ⟨54, _⟩ => ⟨S600000x1, .i32⟩
  | .hbm, ⟨55, _⟩ => ⟨S100000x128, .f32⟩
  | .hbm, ⟨56, _⟩ => ⟨S_, .f32⟩
  | .hbm, ⟨57, _⟩ => ⟨S100000, .f32⟩
  | .hbm, ⟨58, _⟩ => ⟨S100000, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S2x128, .f32⟩
  | .hbm, ⟨65, _⟩ => ⟨S1x128, .f32⟩
  | .hbm, ⟨66, _⟩ => ⟨S128, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S1x128, .f32⟩
  | .hbm, ⟨71, _⟩ => ⟨S128, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S128, .f32⟩
  | .hbm, ⟨76, _⟩ => ⟨S128, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S2x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg7_0 : Ref sig .tc := ⟨.vmem, 18, rfl⟩
abbrev cc2_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem7_0 : DmaSem sig := 18
abbrev cc2_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S2x128_S2x128_0_0 : ∀ a, (![0, 0] : Fin 2 → Nat) a + S2x128.size a ≤ S2x128.size a
  h_S2x128 : 0 < S2x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  inb_S2x128_S1x128_0_0 : ∀ a, (![0, 0] : Fin 2 → Nat) a + S1x128.size a ≤ S2x128.size a
  inb_S2x128_S1x128_1_0 : ∀ a, (![1, 0] : Fin 2 → Nat) a + S1x128.size a ≤ S2x128.size a
  slices_S2x128_S1x128_0_0 : S2x128.Slices ![0, 0] S1x128
  shapeCasts_S1x128_S128 : S1x128.ShapeCasts S128
  bcast_S_S128 : S_.BroadcastsInDim S128 (![] : Fin 0 → Fin S128.rank)
  slices_S2x128_S1x128_1_0 : S2x128.Slices ![1, 0] S1x128
  dot_S5000x128_S128x128_S5000x128_1_0_0_1_n_n_wf : DotDims.WF S5000x128 S128x128 S5000x128 [1] [0] [0] [1] [] []
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x128.size a ≤ S2x128.size a
  hwx1_2 : ∀ i : grid1.Coords, EltTy.bits .f32 = 32 ∨ (Rect.block (s := S2x128) S2x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v61) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v62) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S600000x128 : Shape := ⟨2, ![600000, 128]⟩
abbrev S100000x1 : Shape := ⟨2, ![100000, 1]⟩
abbrev S1x128 : Shape := ⟨2, ![1, 128]⟩

abbrev nBuf : Space → Nat
  | .hbm => 103
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S100000x128, .f32⟩
  | .hbm, ⟨11, _⟩ => ⟨S_, .f32⟩
  | .hbm, ⟨12, _⟩ => ⟨S600000, .f32⟩
  | .hbm, ⟨13, _⟩ => ⟨S_, .f32⟩
  | .hbm, ⟨14, _⟩ => ⟨S100000, .f32⟩
  | .hbm, ⟨15, _⟩ => ⟨S600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000, .f32⟩
  | .hbm, ⟨39, _⟩ => ⟨S600000, .f32⟩
  | .hbm, ⟨40, _⟩ => ⟨S_, .i32⟩
  | .hbm, ⟨41, _⟩ => ⟨S600000, .i32⟩
  | .hbm, ⟨42, _⟩ => ⟨S600000, .i1⟩
  | .hbm, ⟨43, _⟩ => ⟨S_, .i32⟩
  | .hbm, ⟨44, _⟩ => ⟨S600000, .i32⟩
  | .hbm, ⟨45, _⟩ => ⟨S600000, .i32⟩
  | .hbm, ⟨46, _⟩ => ⟨S600000, .i32⟩
  | .hbm, ⟨47, _⟩ => ⟨S600000x1, .i32⟩
  | .hbm, ⟨48, _⟩ => ⟨S600000x128, .f32⟩
  | .hbm, ⟨49, _⟩ => ⟨S600000x1, .f32⟩
  | .hbm, ⟨50, _⟩ => ⟨S600000x128, .f32⟩
  | .hbm, ⟨51, _⟩ => ⟨S600000x128, .f32⟩
  | .hbm, ⟨52, _⟩ => ⟨S_, .f32⟩
  | .hbm, ⟨53, _⟩ => ⟨S100000x128, .f32⟩
  | .hbm, ⟨54, _⟩ => ⟨S600000x1, .i32⟩
  | .hbm, ⟨55, _⟩ => ⟨S100000x128, .f32⟩
  | .hbm, ⟨56, _⟩ => ⟨S_, .f32⟩
  | .hbm, ⟨57, _⟩ => ⟨S100000, .f32⟩
  | .hbm, ⟨58, _⟩ => ⟨S100000, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S128, .f32⟩
  | .hbm, ⟨85, _⟩ => ⟨S128, .f32⟩
  | .hbm, ⟨86, _⟩ => ⟨S128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S100000x128, .f32⟩
  | .hbm, ⟨98, _⟩ => ⟨S100000x128, .f32⟩
  | .hbm, ⟨99, _⟩ => ⟨S100000x128, .f32⟩
  | .hbm, ⟨100, _⟩ => ⟨S_, .f32⟩
  | .hbm, ⟨101, _⟩ => ⟨S100000x128, .f32⟩
  | .hbm, ⟨102, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_13 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_call0_cst : Ref sig .tc := ⟨.hbm, 96, rfl⟩
abbrev main_call0_v0 : Ref sig .tc := ⟨.hbm, 97, rfl⟩
abbrev main_v74 : Ref sig .tc := ⟨.hbm, 98, rfl⟩
abbrev main_v75 : Ref sig .tc := ⟨.hbm, 99, rfl⟩
abbrev main_call1_cst : Ref sig .tc := ⟨.hbm, 100, rfl⟩
abbrev main_call1_v0 : Ref sig .tc := ⟨.hbm, 101, rfl⟩
abbrev main_v76 : Ref sig .tc := ⟨.hbm, 102, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  dot_S100000x128_S128x128_S100000x128_1_0_0_1_n_n_wf : DotDims.WF S100000x128 S128x128 S100000x128 [1] [0] [0] [1] [] []
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.KernelArrays.lean ====
/-
  Names for the arrays the three regions read and write, each at its literal shape, over the extended reals.
  `V` is the contents of the buffers when a region is entered.
-/
import proofs.«172055_j41918880809282_1_alg».proof.Proof.Gen.KernelIdeal.Frame
import Idealize.ShloMosaic.PureOps.Ideal

noncomputable section

namespace Cert.KernelIdeal.Arr

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-- The input `x`, rows by channels. -/
abbrev xin (c : Dev nD) : S100000x128.Idx → EReal := V c main_arg0
/-- The weight matrix. -/
abbrev wts (c : Dev nD) : S128x128.Idx → EReal := V c main_arg2
/-- The product `x · w`. -/
abbrev prod (c : Dev nD) : S100000x128.Idx → EReal := V c main_v0
/-- The aggregate `a`. -/
abbrev agg (c : Dev nD) : S100000x128.Idx → EReal := V c main_v45
/-- The bias as one row. -/
abbrev bias (c : Dev nD) : S1x128.Idx → EReal := V c main_v46
/-- The two rows of column sums. -/
abbrev stats (c : Dev nD) : S2x128.Idx → EReal := V c main_v47
/-- The mean as one row. -/
abbrev mean (c : Dev nD) : S1x128.Idx → EReal := V c main_v58
/-- The variance as one row. -/
abbrev var (c : Dev nD) : S1x128.Idx → EReal := V c main_v59
/-- The scale as one row. -/
abbrev gamma (c : Dev nD) : S1x128.Idx → EReal := V c main_v60
/-- The shift as one row. -/
abbrev beta (c : Dev nD) : S1x128.Idx → EReal := V c main_v61

/-- What the first region leaves in the product's array. -/
abbrev prodOut (c : Dev nD) : S100000x128.Idx → EReal := (dat0 (F := Ideal) V c).arrAt 2 cfg0.N
/-- What the second region leaves in the column sums' array. -/
abbrev statsOut (c : Dev nD) : S2x128.Idx → EReal := (dat1 (F := Ideal) V c).arrAt 2 cfg1.N
/-- What the third region leaves in the result's array. -/
abbrev finalOut (c : Dev nD) : S100000x128.Idx → EReal := (dat2 (F := Ideal) V c).arrAt 7 cfg2.N

end Cert.KernelIdeal.Arr

end
-- ==== Proof.Spec.lean ====
/-
  The vocabulary the two programs are compared in.

  Both programs form one array `y` of 100000 rows and 128 channels (the aggregated features plus the bias), take per
  channel its mean and its variance over the rows, normalize, scale and shift, clamp below at zero, add the input and
  clamp again. They differ in how the variance is formed: one takes the mean of the squares minus the square of the
  mean (`varK`), the other the mean of the squared deviations from the mean (`varR`). The definitions here name the
  column sums, the mean, the two variances and the final entry, over the extended reals.
-/
import Idealize.ShloMosaic.PureOps.Ideal
import Idealize.ShloMosaic.Lib.ValueIdx

noncomputable section

open scoped BigOperators

namespace Cert.Spec

open Idealize.ShloMosaic Idealize.ShloMosaic.ValueIdx

/-- Rows by channels. -/
abbrev SN : Shape := ⟨2, ![100000, 128]⟩
/-- Channels. -/
abbrev SC : Shape := ⟨1, ![128]⟩

/-- The number of rows, as the f32 word both programs divide by. -/
def nrows : EReal := Ideal.ofBits .f32 0x47C35000#32
/-- The stabilizer added to the variance, as the f32 word both programs spell. -/
def eps : EReal := Ideal.ofBits .f32 0x3727C5AC#32
/-- The f32 word of positive zero. -/
def zero : EReal := Ideal.ofBits .f32 0x00000000#32

/-- The sum of channel `c` over all rows. -/
def colSum (y : SN.Idx → EReal) (c : Fin 128) : EReal := ∑ n : Fin 100000, y (ix2 n c)
/-- The sum of the squares of channel `c` over all rows. -/
def colSumSq (y : SN.Idx → EReal) (c : Fin 128) : EReal := ∑ n : Fin 100000, y (ix2 n c) * y (ix2 n c)
/-- The mean of channel `c`. -/
def meanOf (y : SN.Idx → EReal) (c : Fin 128) : EReal := Ideal.div (colSum y c) nrows
/-- The variance as the mean of the squares minus the square of the mean. -/
def varK (y : SN.Idx → EReal) (c : Fin 128) : EReal := Ideal.div (colSumSq y c) nrows - meanOf y c * meanOf y c
/-- The variance as the mean of the squared deviations from the mean. -/
def varR (y : SN.Idx → EReal) (c : Fin 128) : EReal :=
  Ideal.div (∑ n : Fin 100000, (y (ix2 n c) - meanOf y c) * (y (ix2 n c) - meanOf y c)) nrows
/-- The final entry at row `n`, channel `c`: normalize by `mean` and `var`, scale by `γ`, shift by `β`, clamp at zero,
    add the input `x`, clamp at zero. -/
def outOf (y x : SN.Idx → EReal) (mean var γ β : Fin 128 → EReal) (n : Fin 100000) (c : Fin 128) : EReal :=
  max (max ((y (ix2 n c) - mean c) * Ideal.rsqrt (var c + eps) * γ c + β c) zero + x (ix2 n c)) zero

end Cert.Spec

end
-- ==== Proof.HostStretches.lean ====
/-
  The host operations between the regions, read as values.

  Between the first and the second region the program forms, from the product `h` and the edge list, the aggregate
  `a` by exactly the plain program's operations, and reshapes the bias to one row. Between the second and the third it
  divides the two rows of column sums by the number of rows, forms mean-of-squares minus squared mean, and reshapes the
  mean, that variance, the scale and the shift to one row each. No host operation and no region overwrites an argument
  or an array a later region reads.
-/
import proofs.«172055_j41918880809282_1_alg».proof.Proof.KernelRun
import proofs.«172055_j41918880809282_1_alg».proof.Proof.KernelArrays
import proofs.«172055_j41918880809282_1_alg».proof.Proof.Gen.ReferenceIdeal.Read
import proofs.«172055_j41918880809282_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostStretches

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg)

/-! ## The arguments as the later segments find them -/

theorem W1_arg1 (c : Dev nD) : W1 (F := Ideal) m ρ c (Proc.devRef .tc main_arg1) = m ((c : Thread nD τ).loc main_arg1) :=
  (W1_of_ne m ρ c main_arg1 (by decide)).trans rfl
theorem W1_arg3 (c : Dev nD) : W1 (F := Ideal) m ρ c (Proc.devRef .tc main_arg3) = m ((c : Thread nD τ).loc main_arg3) :=
  (W1_of_ne m ρ c main_arg3 (by decide)).trans rfl

/-! ## Between the first and the second region -/

/-- The aggregate: the plain program's operations applied to the product and the edge list. -/
theorem agg_of_prod (c : Dev nD)
    (hP : (W1 (F := Ideal) m ρ c (Proc.devRef .tc main_v0) : S100000x128.Idx → EReal)
      = Cert.ReferenceIdeal.Read.val_main_v4 (F := Ideal) (m ((c : Thread nD τ).loc main_arg0)) (m ((c : Thread nD τ).loc main_arg2))) :
    Arr.agg (V2 (F := Ideal) m ρ) c
      = Cert.ReferenceIdeal.Read.val_main_v45 (F := Ideal) (m ((c : Thread nD τ).loc main_arg0)) (m ((c : Thread nD τ).loc main_arg1)) (m ((c : Thread nD τ).loc main_arg2)) := by
  dsimp only [Arr.agg, V2, W2]
  simp only [hostOps1]
  after_results_simp
  rw [hP, W1_arg1]
  rfl

/-- The bias row: the bias vector at the channel. -/
theorem bias_row (c : Dev nD) (j : Fin 128) :
    Arr.bias (V2 (F := Ideal) m ρ) c (ix2 (0 : Fin 1) j) = (m ((c : Thread nD τ).loc main_arg3) : S128.Idx → EReal) (ix1 j) := by
  dsimp only [Arr.bias, V2, W2]
  simp only [hostOps1]
  after_results_simp
  rw [W1_arg3]
  exact shapeCast_a_1a_apply _ _ 0 j

/-- The second region only reads the aggregate: it leaves the region as it entered. -/
theorem agg_V3 (c : Dev nD) : Arr.agg (V3 (F := Ideal) m ρ) c = Arr.agg (V2 (F := Ideal) m ρ) c :=
  (W3_arr m ρ c 0).trans (((dat1 (V2 m ρ) c).arrAt_in 0 rfl _).trans (A_eq1 (V2 m ρ) c 0))
/-- The second region only reads the bias row. -/
theorem bias_V3 (c : Dev nD) : Arr.bias (V3 (F := Ideal) m ρ) c = Arr.bias (V2 (F := Ideal) m ρ) c :=
  (W3_arr m ρ c 1).trans (((dat1 (V2 m ρ) c).arrAt_in 1 rfl _).trans (A_eq1 (V2 m ρ) c 1))
/-- What the second region leaves in the array of column sums. -/
theorem stats_V3 (c : Dev nD) : Arr.stats (V3 (F := Ideal) m ρ) c = Arr.statsOut (V2 (F := Ideal) m ρ) c :=
  W3_arr m ρ c 2

/-- An argument the first stretch does not write is, after it, what the first region left. -/
theorem W2_arg0 (c : Dev nD) : W2 (F := Ideal) m ρ c (Proc.devRef .tc main_arg0) = m ((c : Thread nD τ).loc main_arg0) := by
  dsimp only [W2]
  simp only [hostOps1]
  after_results_simp
  exact (W1_arr m ρ c 0).trans (((dat0 (V0 m ρ) c).arrAt_in 0 rfl _).trans (A_eq0 (V0 m ρ) c 0))
theorem W2_arg4 (c : Dev nD) : W2 (F := Ideal) m ρ c (Proc.devRef .tc main_arg4) = m ((c : Thread nD τ).loc main_arg4) := by
  dsimp only [W2]
  simp only [hostOps1]
  after_results_simp
  exact (W1_of_ne m ρ c main_arg4 (by decide)).trans rfl
theorem W2_arg5 (c : Dev nD) : W2 (F := Ideal) m ρ c (Proc.devRef .tc main_arg5) = m ((c : Thread nD τ).loc main_arg5) := by
  dsimp only [W2]
  simp only [hostOps1]
  after_results_simp
  exact (W1_of_ne m ρ c main_arg5 (by decide)).trans rfl
theorem W3_arg0 (c : Dev nD) : W3 (F := Ideal) m ρ c (Proc.devRef .tc main_arg0) = m ((c : Thread nD τ).loc main_arg0) :=
  (W3_of_ne m ρ c main_arg0 (by decide)).trans (W2_arg0 m ρ c)
theorem W3_arg4 (c : Dev nD) : W3 (F := Ideal) m ρ c (Proc.devRef .tc main_arg4) = m ((c : Thread nD τ).loc main_arg4) :=
  (W3_of_ne m ρ c main_arg4 (by decide)).trans (W2_arg4 m ρ c)
theorem W3_arg5 (c : Dev nD) : W3 (F := Ideal) m ρ c (Proc.devRef .tc main_arg5) = m ((c : Thread nD τ).loc main_arg5) :=
  (W3_of_ne m ρ c main_arg5 (by decide)).trans (W2_arg5 m ρ c)

/-! ## Between the second and the third region -/

/-- Row `0` of the two rows of column sums, cut out and flattened, at channel `j`. -/
theorem stats_row0 (S : S2x128.Idx → EReal) (j : Fin 128) :
    shapeCast S128 (extractStridedSlice S1x128 ![0, 0] S slices_S2x128_S1x128_0_0) shapeCasts_S1x128_S128 (ix1 j)
      = S (ix2 (0 : Fin 2) j) := by
  rw [shapeCast_1a_a_apply]
  exact slice2_axis0_apply 0 S _ (0 : Fin 1) j (0 : Fin 2) rfl
/-- Row `1` likewise. -/
theorem stats_row1 (S : S2x128.Idx → EReal) (j : Fin 128) :
    shapeCast S128 (extractStridedSlice S1x128 ![1, 0] S slices_S2x128_S1x128_1_0) shapeCasts_S1x128_S128 (ix1 j)
      = S (ix2 (1 : Fin 2) j) := by
  rw [shapeCast_1a_a_apply]
  exact slice2_axis0_apply 1 S _ (0 : Fin 1) j (1 : Fin 2) rfl
/-- The divisor broadcast over the channels is the divisor. -/
theorem nrows_bcast (j : Fin 128) :
    broadcastInDim S128 ![] bcast_S_S128 (constant (F := Ideal) S_ .f32 0x47C35000#32) (ix1 j) = Cert.Spec.nrows := by
  rw [broadcastInDim_apply _ bcast_S_S128 _ (ix1 j) ix0 (fun a => a.elim0)]
  rfl

/-- The mean row: the column sum divided by the number of rows. -/
theorem mean_row (c : Dev nD) (j : Fin 128) :
    Arr.mean (V4 (F := Ideal) m ρ) c (ix2 (0 : Fin 1) j)
      = Ideal.div (Arr.stats (V3 (F := Ideal) m ρ) c (ix2 (0 : Fin 2) j)) Cert.Spec.nrows := by
  dsimp only [Arr.mean, Arr.stats, V4, W4, V3]
  simp only [hostOps2]
  after_results_simp
  refine (shapeCast_a_1a_apply _ _ 0 j).trans ?_
  show Ideal.div (shapeCast S128 (extractStridedSlice S1x128 ![0, 0] (W3 m ρ c (Proc.devRef .tc main_v47)) slices_S2x128_S1x128_0_0) shapeCasts_S1x128_S128 (ix1 j))
      (broadcastInDim S128 ![] bcast_S_S128 (constant (F := Ideal) S_ .f32 0x47C35000#32) (ix1 j)) = _
  rw [stats_row0, nrows_bcast]

/-- The variance row: the column sum of squares divided by the number of rows, minus the square of the mean. -/
theorem var_row (c : Dev nD) (j : Fin 128) :
    Arr.var (V4 (F := Ideal) m ρ) c (ix2 (0 : Fin 1) j)
      = Ideal.div (Arr.stats (V3 (F := Ideal) m ρ) c (ix2 (1 : Fin 2) j)) Cert.Spec.nrows
        - Ideal.div (Arr.stats (V3 (F := Ideal) m ρ) c (ix2 (0 : Fin 2) j)) Cert.Spec.nrows
          * Ideal.div (Arr.stats (V3 (F := Ideal) m ρ) c (ix2 (0 : Fin 2) j)) Cert.Spec.nrows := by
  dsimp only [Arr.var, Arr.stats, V4, W4, V3]
  simp only [hostOps2]
  after_results_simp
  refine (shapeCast_a_1a_apply _ _ 0 j).trans ?_
  show Ideal.div (shapeCast S128 (extractStridedSlice S1x128 ![1, 0] (W3 m ρ c (Proc.devRef .tc main_v47)) slices_S2x128_S1x128_1_0) shapeCasts_S1x128_S128 (ix1 j))
        (broadcastInDim S128 ![] bcast_S_S128 (constant (F := Ideal) S_ .f32 0x47C35000#32) (ix1 j))
      - Ideal.div (shapeCast S128 (extractStridedSlice S1x128 ![0, 0] (W3 m ρ c (Proc.devRef .tc main_v47)) slices_S2x128_S1x128_0_0) shapeCasts_S1x128_S128 (ix1 j))
          (broadcastInDim S128 ![] bcast_S_S128 (constant (F := Ideal) S_ .f32 0x47C35000#32) (ix1 j))
        * Ideal.div (shapeCast S128 (extractStridedSlice S1x128 ![0, 0] (W3 m ρ c (Proc.devRef .tc main_v47)) slices_S2x128_S1x128_0_0) shapeCasts_S1x128_S128 (ix1 j))
          (broadcastInDim S128 ![] bcast_S_S128 (constant (F := Ideal) S_ .f32 0x47C35000#32) (ix1 j)) = _
  rw [stats_row0, stats_row1, nrows_bcast]

/-- The scale row: the scale vector at the channel. -/
theorem gamma_row (c : Dev nD) (j : Fin 128) :
    Arr.gamma (V4 (F := Ideal) m ρ) c (ix2 (0 : Fin 1) j) = (m ((c : Thread nD τ).loc main_arg4) : S128.Idx → EReal) (ix1 j) := by
  dsimp only [Arr.gamma, V4, W4]
  simp only [hostOps2]
  after_results_simp
  rw [W3_arg4]
  exact shapeCast_a_1a_apply _ _ 0 j
/-- The shift row: the shift vector at the channel. -/
theorem beta_row (c : Dev nD) (j : Fin 128) :
    Arr.beta (V4 (F := Ideal) m ρ) c (ix2 (0 : Fin 1) j) = (m ((c : Thread nD τ).loc main_arg5) : S128.Idx → EReal) (ix1 j) := by
  dsimp only [Arr.beta, V4, W4]
  simp only [hostOps2]
  after_results_simp
  rw [W3_arg5]
  exact shapeCast_a_1a_apply _ _ 0 j

/-- The second stretch writes neither the aggregate, nor the bias row, nor the input. -/
theorem agg_V4 (c : Dev nD) : Arr.agg (V4 (F := Ideal) m ρ) c = Arr.agg (V2 (F := Ideal) m ρ) c := by
  refine Eq.trans ?_ (agg_V3 m ρ c)
  dsimp only [Arr.agg, V4, W4, V3]
  simp only [hostOps2]
  after_results_simp
theorem bias_V4 (c : Dev nD) : Arr.bias (V4 (F := Ideal) m ρ) c = Arr.bias (V2 (F := Ideal) m ρ) c := by
  refine Eq.trans ?_ (bias_V3 m ρ c)
  dsimp only [Arr.bias, V4, W4, V3]
  simp only [hostOps2]
  after_results_simp
theorem xin_V4 (c : Dev nD) : Arr.xin (V4 (F := Ideal) m ρ) c = m ((c : Thread nD τ).loc main_arg0) := by
  refine Eq.trans ?_ (W3_arg0 m ρ c)
  dsimp only [Arr.xin, V4, W4]
  simp only [hostOps2]
  after_results_simp

end Cert.KernelIdeal.HostStretches

end
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.MatmulRegion.lean ====
/-
  The first region: the product of the input rows with the weight matrix.

  The rows are cut into 20 tiles of 5000; at tile `t` the body multiplies the tile by the whole weight matrix on the
  matrix unit (operands narrowed to bf16, which over the extended reals changes nothing, accumulated into zeros) and
  stores the product as the tile of the result. Entry `(5000 t + r, q)` of the result is therefore
  `∑ k, x (5000 t + r, k) · w (k, q)`, which is the plain program's `dot_general` of the whole arrays at that entry.
-/
import proofs.«172055_j41918880809282_1_alg».proof.Proof.KernelArrays
import proofs.«172055_j41918880809282_1_alg».proof.Proof.Spec
import proofs.«172055_j41918880809282_1_alg».proof.Proof.LibAffineRows
import proofs.«172055_j41918880809282_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.MatmulRegion

open Cert.KernelIdeal Cert.KernelIdeal.Gen

/-! ## The tile's product at an entry -/

/-- The left operand's row is the result's row. -/
theorem lhs_tile_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contracted index. -/
theorem lhs_tile_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contracted index. -/
theorem rhs_tile_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the result's column. -/
theorem rhs_tile_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The tile's dimension numbers describe the plain product of a `[5000, 128]` by a `[128, 128]` matrix. -/
theorem tile_plain : Cert.Lib.PlainDot (R := 5000) (K := 128) (M := 128) dot_S5000x128_S128x128_S5000x128_1_0_0_1_n_n :=
  ⟨rfl, rfl, lhs_tile_0, lhs_tile_1, rhs_tile_0, rhs_tile_1⟩

/-- The tile's product at `(r, q)`: the sum over the contracted index. -/
theorem tile_apply (xb : Vec Ideal S5000x128 .f32) (wb : Vec Ideal S128x128 .f32) (r : Fin 5000) (q : Fin 128) :
    k0_pay1 (F := Ideal) xb wb (ix2 r q) = ∑ k : Fin 128, xb (ix2 r k) * wb (ix2 k q) := by
  unfold k0_pay1
  exact Cert.Lib.matmul_zero_apply tile_plain xb wb bitsLt_bf16_f32 r q

/-- ROW BY ROW: where row `r` of the tile is row `n r` of the whole input and the tile's weights are the whole weights, the
    tile's product at `(r, q)` is the plain program's product of the whole arrays at `(n r, q)`. -/
theorem tile_entry (xb : Vec Ideal S5000x128 .f32) (wb : Vec Ideal S128x128 .f32)
    (X : S100000x128.Idx → EReal) (W : S128x128.Idx → EReal) (n : Fin 5000 → Fin 100000)
    (hx : ∀ r k, xb (ix2 r k) = X (ix2 (n r) k)) (hw : ∀ k q, wb (ix2 k q) = W (ix2 k q)) (r : Fin 5000) (q : Fin 128) :
    k0_pay1 (F := Ideal) xb wb (ix2 r q)
      = Cert.ReferenceIdeal.Read.val_main_v4 (F := Ideal) X W (ix2 (n r) q) := by
  rw [tile_apply, Cert.ReferenceIdeal.Read.val_main_v4_apply]
  refine Finset.sum_congr rfl fun k _ => ?_
  have el : Cert.ReferenceIdeal.Read.lidx_main_v4 (ix2 (n r) q) k = ix2 (n r) k :=
    funext fun a => Fin.ext (by match a with | ⟨0, _⟩ => rfl | ⟨1, _⟩ => rfl)
  have er : Cert.ReferenceIdeal.Read.ridx_main_v4 (ix2 (n r) q) k = ix2 k q :=
    funext fun a => Fin.ext (by match a with | ⟨0, _⟩ => rfl | ⟨1, _⟩ => rfl)
  rw [el, er, hx, hw]

/-! ## The blocks the tile reads -/

variable (V : (c : Dev nD) → (b : Ref sig .tc) → Buf (Elt Ideal) ((c : Thread nD τ).loc b))

theorem origin_eq : (![0, 0] : Fin 2 → Nat) = fun _ => 0 := funext fun a => by fin_cases a <;> rfl

/-- The printed index maps, decided over the grid: at point `t` the input's and the result's tile are tile `t` of the rows,
    all columns; the weights' block is the whole matrix. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `r` of tile `t` as a row of the whole array. -/
def rowOf (t : Fin cfg0.N) (r : Fin 5000) : Fin 100000 :=
  ⟨5000 * t.val + r.val, by have hN : cfg0.N = 20 := N_0; have := t.isLt; have := r.isLt; omega⟩

/-- The input window's block at point `t` is rows `5000 t … 5000 t + 4999` of the input. -/
theorem input_tile_apply (c : Dev nD) (t : Fin cfg0.N) (r : Fin 5000) (k : Fin 128) :
    (iblk0 (F := Ideal) V c 0 t : Vec Ideal S5000x128 .f32) (ix2 r k) = Arr.xin V c (ix2 (rowOf t r) k) := by
  obtain ⟨e0, e1, -⟩ := block_indices t
  unfold iblk0
  rw [View.read_apply]
  show V c main_arg0 _ = V c main_arg0 _
  congr 1
  funext a
  apply Fin.ext
  match a with
  | ⟨0, _⟩ => show win0_0.index t 0 * 5000 + 1 * r.val = 5000 * t.val + r.val; rw [e0]; omega
  | ⟨1, _⟩ => show win0_0.index t 1 * 128 + 1 * k.val = k.val; rw [e1]; omega

/-- The weights' block at every point is the whole weight matrix. -/
theorem weights_block_apply (c : Dev nD) (t : Fin cfg0.N) (k q : Fin 128) :
    (iblk0 (F := Ideal) V c 1 t : Vec Ideal S128x128 .f32) (ix2 k q) = Arr.wts V c (ix2 k q) := by
  obtain ⟨-, -, e2, e3, -⟩ := block_indices t
  unfold iblk0
  rw [View.read_apply]
  show V c main_arg2 _ = V c main_arg2 _
  congr 1
  funext a
  apply Fin.ext
  match a with
  | ⟨0, _⟩ => show win0_1.index t 0 * 128 + 1 * k.val = k.val; rw [e2]; omega
  | ⟨1, _⟩ => show win0_1.index t 1 * 128 + 1 * q.val = q.val; rw [e3]; omega

/-! ## From the tiles to the array -/

/-- WHAT POINT `t` WRITES BACK is tile `t` of the plain program's product of the whole arrays: entry `(r, q)` of the tile's
    product sits at row `5000 t + r` of the array, and there the two sums over the contracted index are the same sum. -/
theorem tile_written (c : Dev nD) (t : Fin cfg0.N) :
    (dat0 (F := Ideal) V c).flushed 2 t
      = ((cfg0.win 2).blk t).view.read (Elt Ideal) (Cert.ReferenceIdeal.Read.val_main_v4 (F := Ideal) (Arr.xin V c) (Arr.wts V c)) := by
  show (cfg0.win 2).cut (grid0.coords t) ((dat0 (F := Ideal) V c).after 2 t) = _
  rw [after0_2]
  unfold out0_2
  rw [View.canon_unit_zero origin_eq]
  simp only [View.ld_unit_zero (S := S5000x128) origin_eq, View.ld_unit_zero (S := S128x128) origin_eq]
  obtain ⟨-, -, -, -, e4, e5⟩ := block_indices t
  funext j
  obtain ⟨r, q, rfl⟩ : ∃ (r : Fin 5000) (q : Fin 128), j = ix2 r q := ⟨j 0, j 1, eq_ix2 j⟩
  rw [View.read_apply]
  have he : ((cfg0.win 2).blk t).view.emb (ix2 r q) = ix2 (rowOf t r) q := by
    funext a
    apply Fin.ext
    match a with
    | ⟨0, _⟩ => show win0_2.index t 0 * 5000 + 1 * r.val = 5000 * t.val + r.val; rw [e4]; omega
    | ⟨1, _⟩ => show win0_2.index t 1 * 128 + 1 * q.val = q.val; rw [e5]; omega
  show k0_pay1 (F := Ideal) (iblk0 V c 0 t) (iblk0 V c 1 t) (ix2 r q)
    = Cert.ReferenceIdeal.Read.val_main_v4 (F := Ideal) (Arr.xin V c) (Arr.wts V c) (((cfg0.win 2).blk t).view.emb (ix2 r q))
  rw [he]
  exact tile_entry (iblk0 V c 0 t) (iblk0 V c 1 t) (Arr.xin V c) (Arr.wts V c) (rowOf t) (input_tile_apply V c t) (weights_block_apply V c t) r q

/-- An index of the array is in point `t`'s tile iff each coordinate is in the tile's range on its axis. -/
theorem mem_tile (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- THE COVER: row `n` of the array is in the tile of point `n / 5000`, which writes its tile back. -/
theorem rows_covered (i : S100000x128.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 128 := (i 1).isLt
  let t : Fin cfg0.N := ⟨(i 0).val / 5000, by omega⟩
  have ht : t.val = (i 0).val / 5000 := rfl
  obtain ⟨-, -, -, -, e4, e5⟩ := block_indices t
  refine ⟨t, flush0_2 t, ?_⟩
  rw [mem_tile]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 128 ≤ (i 1).val ∧ (i 1).val < win0_2.index t (1 : Fin 2) * 128 + 128; rw [e5]; omega

/-- After the first region the product's array holds the plain program's whole `dot_general` of the input and the weights. -/
theorem prod_array (c : Dev nD) :
    Arr.prodOut V c
      = Cert.ReferenceIdeal.Read.val_main_v4 (F := Ideal) (Arr.xin V c) (Arr.wts V c) :=
  (dat0 (F := Ideal) V c).arrAt_eq_of_cover 2 (Cert.ReferenceIdeal.Read.val_main_v4 (F := Ideal) (Arr.xin V c) (Arr.wts V c))
    (fun t _ => tile_written V c t) rows_covered

end Cert.KernelIdeal.MatmulRegion

end
-- ==== Proof.Moments.lean ====
/-
  Sums over row tiles and the two forms of the variance.

  (1) The rows 0 … 99999 split into 20 tiles of 5000 consecutive rows; a sum over all rows is the sum over the tiles of
      the sums over a tile's rows (`sum_tiles`).
  (2) For real entries `y n` (n < N, N = 100000 = the divisor), with mean `μ = (∑ y n) / N`:
      `(∑ (y n)²) / N − μ² = (∑ (y n − μ)²) / N`, since `∑ (y n − μ)² = ∑ (y n)² − 2 μ ∑ y n + N μ²` and `∑ y n = N μ`.
      Over the extended reals the same holds as soon as every entry is a real number (`varK_eq_varR`); with an
      infinite entry it fails, which is why the entries' finiteness is asked for.
-/
import proofs.«172055_j41918880809282_1_alg».proof.Proof.Spec
import Mathlib.Algebra.BigOperators.Fin
import Mathlib.Data.Fintype.BigOperators
import Mathlib.Logic.Equiv.Fin.Basic
import Mathlib.Data.EReal.Operations
import Mathlib.Tactic.Ring
import Mathlib.Tactic.FieldSimp
import Mathlib.Tactic.NormNum

noncomputable section

open scoped BigOperators

namespace Cert.Moments

open Idealize.ShloMosaic Idealize.ShloMosaic.ValueIdx Cert.Spec

/-- The divisor's word denotes the number of rows. -/
theorem nrows_eq : Cert.Spec.nrows = ((100000 : ℝ) : EReal) := by
  unfold Cert.Spec.nrows
  simp [Ideal.ofBits, Ideal.ieee, -EReal.coe_mul]; norm_num

/-- Row `b * t + r` of tile `t` lies below `a * b`. -/
theorem tile_lt {a b : ℕ} (t : Fin a) (r : Fin b) : b * t.val + r.val < a * b :=
  calc b * t.val + r.val < b * t.val + b := Nat.add_lt_add_left r.isLt _
    _ = (t.val + 1) * b := by rw [Nat.succ_mul, Nat.mul_comm]
    _ ≤ a * b := Nat.mul_le_mul_right _ t.isLt

/-- In a commutative additive monoid a sum over `a * b` consecutive indices is the sum over `a` tiles of the sums over a
    tile's `b` indices: the pair `(t, r)` names index `b * t + r`, and that naming is a bijection. -/
theorem sum_tiles_gen {M : Type*} [AddCommMonoid M] (a b : ℕ) (g : Fin (a * b) → M) :
    ∑ t : Fin a, ∑ r : Fin b, g ⟨b * t.val + r.val, tile_lt t r⟩ = ∑ n : Fin (a * b), g n := by
  rw [← Fintype.sum_prod_type' (f := fun (t : Fin a) (r : Fin b) => g ⟨b * t.val + r.val, tile_lt t r⟩)]
  refine Fintype.sum_equiv finProdFinEquiv _ _ (fun x => ?_)
  refine congrArg g (Fin.ext ?_)
  show b * x.1.val + x.2.val = x.2.val + b * x.1.val
  exact Nat.add_comm _ _

/-- A sum over all rows, tile by tile. -/
theorem sum_tiles (f : Fin 100000 → EReal) :
    ∑ t : Fin 20, ∑ r : Fin 5000, f ⟨5000 * t.val + r.val, by have := t.isLt; have := r.isLt; omega⟩ = ∑ n : Fin 100000, f n :=
  sum_tiles_gen 20 5000 f

/-- The coercion of the reals into the extended reals carries finite sums to finite sums. -/
theorem coe_sum {ι : Type*} (s : Finset ι) (z : ι → ℝ) :
    ∑ i ∈ s, ((z i : ℝ) : EReal) = ((∑ i ∈ s, z i : ℝ) : EReal) := by
  classical
  induction s using Finset.induction_on with
  | empty => simp
  | insert i s hi ih => rw [Finset.sum_insert hi, Finset.sum_insert hi, ih, EReal.coe_add]

/-- Over the reals: for `N` numbers `z i` with mean `μ = (∑ z i) / N`, the mean of the squares minus `μ²` is the mean of the
    squared deviations from `μ`. Expanding, `∑ (z i − μ)² = ∑ (z i)² − 2 μ ∑ z i + N μ²`, and `∑ z i = N μ`. -/
theorem real_var {ι : Type*} (s : Finset ι) (z : ι → ℝ) (N : ℝ) (hcard : (s.card : ℝ) = N) (hN : N ≠ 0) :
    (∑ i ∈ s, z i * z i) * (1 / N) - (∑ i ∈ s, z i) * (1 / N) * ((∑ i ∈ s, z i) * (1 / N))
      = (∑ i ∈ s, (z i - (∑ i ∈ s, z i) * (1 / N)) * (z i - (∑ i ∈ s, z i) * (1 / N))) * (1 / N) := by
  generalize hS : ∑ i ∈ s, z i = S
  generalize hQ : ∑ i ∈ s, z i * z i = Q
  generalize hμ : S * (1 / N) = μ
  have hdev : ∑ i ∈ s, (z i - μ) * (z i - μ) = Q - 2 * μ * S + N * (μ * μ) := by
    have h1 : ∀ i ∈ s, (z i - μ) * (z i - μ) = z i * z i - 2 * μ * z i + μ * μ := fun i _ => by ring
    rw [Finset.sum_congr rfl h1, Finset.sum_add_distrib, Finset.sum_sub_distrib, ← Finset.mul_sum, hS, hQ,
      Finset.sum_const, nsmul_eq_mul, hcard]
  have hSμ : S = N * μ := by rw [← hμ]; field_simp
  rw [hdev, hSμ]
  field_simp
  ring

/-- With every entry a real number, the mean of the squares minus the square of the mean is the mean of the squared
    deviations. -/
theorem varK_eq_varR (y : SN.Idx → EReal) (hy : ∀ (n : Fin 100000) (c : Fin 128), ∃ r : ℝ, y (ix2 n c) = (r : EReal))
    (c : Fin 128) : varK y c = varR y c := by
  choose yr hyr using hy
  have hN : (100000 : ℝ) ≠ 0 := by norm_num
  unfold varK varR meanOf colSum colSumSq
  rw [nrows_eq]
  simp only [hyr, Ideal.div_coe hN, ← EReal.coe_mul, coe_sum, ← EReal.coe_sub]
  rw [EReal.coe_eq_coe_iff]
  refine real_var Finset.univ (fun n => yr n c) 100000 ?_ hN
  rw [Finset.card_univ, Fintype.card_fin]
  norm_num

end Cert.Moments

end
-- ==== Proof.StatsRegion.lean ====
/-
  The second region: per channel, the sum and the sum of squares of `y = a + bias` over all rows.

  The rows of `a` are cut into 20 tiles of 5000. The output is one block of two rows whose index never moves: the body
  zeroes it at the first tile, and at every tile adds to row 0 the tile's column sums of `y` and to row 1 the tile's
  column sums of `y²`; it is written back after the last tile. Over the extended reals `0 + s = s` and addition is
  associative and commutative, so after tile `n` the block holds the sums over the rows of tiles 0 … n, and at the end
  the sums over all 100000 rows.
-/
import proofs.«172055_j41918880809282_1_alg».proof.Proof.KernelArrays
import proofs.«172055_j41918880809282_1_alg».proof.Proof.Spec
import proofs.«172055_j41918880809282_1_alg».proof.Proof.Moments
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.StatsRegion

open Cert.KernelIdeal Cert.KernelIdeal.Gen

variable (V : (c : Dev nD) → (b : Ref sig .tc) → Buf (Elt Ideal) ((c : Thread nD τ).loc b))

/-! ## Reading a two-row block written row by row -/

section Rows

variable {Val : EltTy → Type} [∀ e, Nonempty (Val e)]

/-- Entry `(0, j)` of the block is entry `(0, j)` of the row rectangle at offset `(0, 0)`. -/
theorem emb_row0 (inb : ∀ a, (![0, 0] : Fin 2 → Nat) a + S1x128.size a ≤ S2x128.size a) (j : Fin 128) :
    (Rect.unit (s := S2x128) ![0, 0] S1x128.size inb).emb (ix2 (0 : Fin 1) j) = ix2 (0 : Fin 2) j := by
  funext a
  apply Fin.ext
  match a with
  | ⟨0, _⟩ => rfl
  | ⟨1, _⟩ => show 0 + 1 * j.val = j.val; omega

/-- Entry `(1, j)` of the block is entry `(0, j)` of the row rectangle at offset `(1, 0)`. -/
theorem emb_row1 (inb : ∀ a, (![1, 0] : Fin 2 → Nat) a + S1x128.size a ≤ S2x128.size a) (j : Fin 128) :
    (Rect.unit (s := S2x128) ![1, 0] S1x128.size inb).emb (ix2 (0 : Fin 1) j) = ix2 (1 : Fin 2) j := by
  funext a
  apply Fin.ext
  match a with
  | ⟨0, _⟩ => rfl
  | ⟨1, _⟩ => show 0 + 1 * j.val = j.val; omega

/-- Row 0 is outside the rectangle of row 1: its first coordinate is below that rectangle's offset. -/
theorem row0_not_mem_row1 (inb : ∀ a, (![1, 0] : Fin 2 → Nat) a + S1x128.size a ≤ S2x128.size a) (j : Fin 128) :
    ix2 (0 : Fin 2) j ∉ (Rect.unit (s := S2x128) ![1, 0] S1x128.size inb).set := by
  rw [Rect.mem_set_unit]
  intro h
  have h0 : (1 : ℕ) ≤ 0 := (h 0).1
  omega

/-- Row 1 is outside the rectangle of row 0: its first coordinate is past that rectangle's one row. -/
theorem row1_not_mem_row0 (inb : ∀ a, (![0, 0] : Fin 2 → Nat) a + S1x128.size a ≤ S2x128.size a) (j : Fin 128) :
    ix2 (1 : Fin 2) j ∉ (Rect.unit (s := S2x128) ![0, 0] S1x128.size inb).set := by
  rw [Rect.mem_set_unit]
  intro h
  have h0 : (1 : ℕ) < 0 + 1 := (h 0).2
  omega

/-- After a store to row 1 made last, row 1 reads that store's payload. -/
theorem canon_row1 (inb1) (w1 : S1x128.Idx → Val .f32) (L : List (View.Piece Val S2x128 .f32)) (j : Fin 128) :
    View.canon ((⟨Rect.unit (s := S2x128) ![1, 0] S1x128.size inb1, w1⟩ : View.Piece Val S2x128 .f32) :: L) (ix2 (1 : Fin 2) j)
      = w1 (ix2 (0 : Fin 1) j) := by
  rw [← emb_row1 inb1 j]
  exact View.canon_cons_emb (Rect.unit (s := S2x128) ![1, 0] S1x128.size inb1) w1 L (ix2 (0 : Fin 1) j)

/-- After a store to row 0 and then one to row 1, row 0 reads the first store's payload. -/
theorem canon_row0 (inb1) (inb0) (w1 w0 : S1x128.Idx → Val .f32) (L : List (View.Piece Val S2x128 .f32)) (j : Fin 128) :
    View.canon ((⟨Rect.unit (s := S2x128) ![1, 0] S1x128.size inb1, w1⟩ : View.Piece Val S2x128 .f32)
        :: ⟨Rect.unit (s := S2x128) ![0, 0] S1x128.size inb0, w0⟩ :: L) (ix2 (0 : Fin 2) j)
      = w0 (ix2 (0 : Fin 1) j) := by
  refine (View.canon_cons_of_not_mem (⟨Rect.unit (s := S2x128) ![1, 0] S1x128.size inb1, w1⟩ : View.Piece Val S2x128 .f32)
    (⟨Rect.unit (s := S2x128) ![0, 0] S1x128.size inb0, w0⟩ :: L) (y := ix2 (0 : Fin 2) j) (row0_not_mem_row1 inb1 j)).trans ?_
  rw [← emb_row0 inb0 j]
  exact View.canon_cons_emb (Rect.unit (s := S2x128) ![0, 0] S1x128.size inb0) w0 L (ix2 (0 : Fin 1) j)

/-- A store to row 0 leaves row 1 as the earlier stores left it. -/
theorem canon_skip_row0 (inb0) (w0 : S1x128.Idx → Val .f32) (L : List (View.Piece Val S2x128 .f32)) (j : Fin 128) :
    View.canon ((⟨Rect.unit (s := S2x128) ![0, 0] S1x128.size inb0, w0⟩ : View.Piece Val S2x128 .f32) :: L) (ix2 (1 : Fin 2) j)
      = View.canon L (ix2 (1 : Fin 2) j) :=
  View.canon_cons_of_not_mem (⟨Rect.unit (s := S2x128) ![0, 0] S1x128.size inb0, w0⟩ : View.Piece Val S2x128 .f32)
    L (y := ix2 (1 : Fin 2) j) (row1_not_mem_row0 inb0 j)

/-- A load of row 0 reads row 0. -/
theorem ld_row0 (X : S2x128.Idx → Val .f32) (inb0) (j : Fin 128) :
    View.ld X (Rect.unit (s := S2x128) ![0, 0] S1x128.size inb0) (ix2 (0 : Fin 1) j) = X (ix2 (0 : Fin 2) j) :=
  congrArg X (emb_row0 inb0 j)

/-- A load of row 1 reads row 1. -/
theorem ld_row1 (X : S2x128.Idx → Val .f32) (inb1) (j : Fin 128) :
    View.ld X (Rect.unit (s := S2x128) ![1, 0] S1x128.size inb1) (ix2 (0 : Fin 1) j) = X (ix2 (1 : Fin 2) j) :=
  congrArg X (emb_row1 inb1 j)

/-- A load of row 0 after stores reads what they left in row 0. -/
theorem readCov_row0 {sig : RefSig} {κ : Kind} {sp : Space} (v : View sig κ sp S2x128 .f32)
    (L : List (View.Piece Val S2x128 .f32)) (inb0) (j : Fin 128) :
    v.readCov L (Rect.unit (s := S2x128) ![0, 0] S1x128.size inb0).toLoadRect (ix2 (0 : Fin 1) j)
      = View.canon L (ix2 (0 : Fin 2) j) := by
  rw [View.readCov_eq_canon']
  exact congrArg (View.canon L) (emb_row0 inb0 j)

/-- A load of row 1 after stores reads what they left in row 1. -/
theorem readCov_row1 {sig : RefSig} {κ : Kind} {sp : Space} (v : View sig κ sp S2x128 .f32)
    (L : List (View.Piece Val S2x128 .f32)) (inb1) (j : Fin 128) :
    v.readCov L (Rect.unit (s := S2x128) ![1, 0] S1x128.size inb1).toLoadRect (ix2 (0 : Fin 1) j)
      = View.canon L (ix2 (1 : Fin 2) j) := by
  rw [View.readCov_eq_canon']
  exact congrArg (View.canon L) (emb_row1 inb1 j)

end Rows

/-! ## The body's arithmetic, at an entry, over the extended reals -/

/-- The tile plus the bias row. -/
theorem pay2_apply (x0 : Vec Ideal S5000x128 .f32) (x1 : Vec Ideal S1x128 .f32) (p : Fin 5000) (q : Fin 128) :
    k1_pay2 (F := Ideal) x0 x1 (ix2 p q) = x0 (ix2 p q) + x1 (ix2 (0 : Fin 1) q) := by
  unfold k1_pay2
  simp only [shapeCast_self]
  exact congrArg (x0 (ix2 p q) + ·) (broadcastTo_1b_ab_apply x1 broadcasts_S1x128_S5000x128 p q)

/-- A sum over the rows of a tile, lane by lane. -/
theorem lanesum_apply (y : FVec Ideal S5000x128 .f32) (hφ : FKind.Formats .f32)
    (hacc : (0x00000000#32 : BitVec (FTy.bits .f32)) = FKind.add.neutral .f32 hφ) (q : Fin 128) :
    multiReduction (F := Ideal) .add [0] S128 y 0x00000000#32 reduces_S5000x128_S128 hφ hacc (ix1 q)
      = ∑ r : Fin 5000, y (ix2 r q) := by
  refine (Ideal.multiReduction_add_single y 0x00000000#32 reduces_S5000x128_S128 hφ hacc (ix1 q)).trans ?_
  refine Finset.sum_congr rfl fun r _ => congrArg y ?_
  funext a
  apply Fin.ext
  match a with
  | ⟨0, _⟩ => rfl
  | ⟨1, _⟩ => rfl

/-- Row 0's new contents: what it held plus the tile's column sums of `a + bias`. -/
theorem pay3_apply (x0 : Vec Ideal S5000x128 .f32) (x1 : Vec Ideal S1x128 .f32) (v : Vec Ideal S1x128 .f32) (q : Fin 128) :
    k1_pay3 (F := Ideal) x0 x1 v (ix2 (0 : Fin 1) q)
      = v (ix2 (0 : Fin 1) q) + ∑ r : Fin 5000, (x0 (ix2 r q) + x1 (ix2 (0 : Fin 1) q)) := by
  unfold k1_pay3
  simp only [shapeCast_self]
  refine congrArg (v (ix2 (0 : Fin 1) q) + ·) ?_
  refine (shapeCast_a_1a_apply _ shapeCasts_S128_S1x128 (0 : Fin 1) q).trans ?_
  refine (lanesum_apply (k1_pay2 (F := Ideal) x0 x1) _ _ q).trans ?_
  exact Finset.sum_congr rfl fun r _ => pay2_apply x0 x1 r q

/-- Row 1's new contents: what it held plus the tile's column sums of `(a + bias)²`. -/
theorem pay4_apply (x0 : Vec Ideal S5000x128 .f32) (x1 : Vec Ideal S1x128 .f32) (v : Vec Ideal S1x128 .f32) (q : Fin 128) :
    k1_pay4 (F := Ideal) x0 x1 v (ix2 (0 : Fin 1) q)
      = v (ix2 (0 : Fin 1) q)
        + ∑ r : Fin 5000, (x0 (ix2 r q) + x1 (ix2 (0 : Fin 1) q)) * (x0 (ix2 r q) + x1 (ix2 (0 : Fin 1) q)) := by
  unfold k1_pay4
  simp only [shapeCast_self]
  refine congrArg (v (ix2 (0 : Fin 1) q) + ·) ?_
  refine (shapeCast_a_1a_apply _ shapeCasts_S128_S1x128 (0 : Fin 1) q).trans ?_
  refine (lanesum_apply (mulf (k1_pay2 (F := Ideal) x0 x1) (k1_pay2 (F := Ideal) x0 x1)) _ _ q).trans ?_
  refine Finset.sum_congr rfl fun r _ => ?_
  show k1_pay2 (F := Ideal) x0 x1 (ix2 r q) * k1_pay2 (F := Ideal) x0 x1 (ix2 r q) = _
  rw [pay2_apply x0 x1 r q]

/-- The zero block's entries are zero. -/
theorem pay1_apply (y : S2x128.Idx) : k1_pay1 (F := Ideal) y = 0 := by
  unfold k1_pay1
  show Ideal.ofBits .f32 0x00000000#32 = 0
  simp [Ideal.ofBits, Ideal.ieee]

/-! ## What each case leaves in the block, at an entry

At points 1 … 19 the body's two stores, last first, are: row 1 ← (row 1 as carried) + the tile's column sums of `y²`, and
row 0 ← (row 0 as carried) + the tile's column sums of `y`. At point 0 the same two stores come after a store of zeros to
the whole block, and the rows they read back are rows of that zero block. -/

theorem hz2 : (![0, 0] : Fin 2 → Nat) = fun _ => 0 := funext fun a => by fin_cases a <;> rfl

/-- Points 1 … 19, row 0: the carried row 0 plus the tile's column sums of `a + bias`. -/
theorem outB_row0 (c : Dev nD) (i : grid1.Coords) (a1 : Memref sig .tc .vmem S5000x128 .f32) (h1 : a1.IsWhole)
    (a2 : Memref sig .tc .vmem S1x128 .f32) (h2 : a2.IsWhole) (a3 : Memref sig .tc .vmem S2x128 .f32) (h3 : a3.IsWhole)
    (hc : ¬cond1_0 i) (x0 : Vec Ideal S5000x128 .f32) (x1 : Vec Ideal S1x128 .f32) (xo : Vec Ideal S2x128 .f32) (j : Fin 128) :
    out1_B_2 (F := Ideal) c i a1 h1 a2 h2 a3 h3 hc x0 x1 xo (ix2 (0 : Fin 2) j)
      = xo (ix2 (0 : Fin 2) j) + ∑ r : Fin 5000, (x0 (ix2 r j) + x1 (ix2 (0 : Fin 1) j)) := by
  unfold out1_B_2
  rw [View.read_writes_eq_canon _ _ _ (cover1_B_2 c i a1 h1 a2 h2 a3 h3 hc x0 x1 xo)]
  unfold kernelRun1_B
  dsimp only
  sl_unfold_words
  simp only [View.readAt_eq_ld, h1.read_unread, h2.read_unread, h3.read_unread, View.ld_unit_zero (S := S5000x128) hz2,
    View.ld_unit_zero (S := S1x128) hz2]
  refine (canon_row0 _ _ _ _ _ j).trans ?_
  refine (pay3_apply _ _ _ j).trans ?_
  exact congrArg (· + _) (ld_row0 xo _ j)

/-- Points 1 … 19, row 1: the carried row 1 plus the tile's column sums of `(a + bias)²`. -/
theorem outB_row1 (c : Dev nD) (i : grid1.Coords) (a1 : Memref sig .tc .vmem S5000x128 .f32) (h1 : a1.IsWhole)
    (a2 : Memref sig .tc .vmem S1x128 .f32) (h2 : a2.IsWhole) (a3 : Memref sig .tc .vmem S2x128 .f32) (h3 : a3.IsWhole)
    (hc : ¬cond1_0 i) (x0 : Vec Ideal S5000x128 .f32) (x1 : Vec Ideal S1x128 .f32) (xo : Vec Ideal S2x128 .f32) (j : Fin 128) :
    out1_B_2 (F := Ideal) c i a1 h1 a2 h2 a3 h3 hc x0 x1 xo (ix2 (1 : Fin 2) j)
      = xo (ix2 (1 : Fin 2) j)
        + ∑ r : Fin 5000, (x0 (ix2 r j) + x1 (ix2 (0 : Fin 1) j)) * (x0 (ix2 r j) + x1 (ix2 (0 : Fin 1) j)) := by
  unfold out1_B_2
  rw [View.read_writes_eq_canon _ _ _ (cover1_B_2 c i a1 h1 a2 h2 a3 h3 hc x0 x1 xo)]
  unfold kernelRun1_B
  dsimp only
  sl_unfold_words
  simp only [View.readAt_eq_ld, h1.read_unread, h2.read_unread, h3.read_unread, View.ld_unit_zero (S := S5000x128) hz2,
    View.ld_unit_zero (S := S1x128) hz2]
  refine (canon_row1 _ _ _ j).trans ?_
  refine (pay4_apply _ _ _ j).trans ?_
  exact congrArg (· + _) (ld_row1 xo _ j)

/-- Point 0, row 0: the block is zeroed first, so row 0 ends at the tile's column sums of `a + bias` (`0 + s = s`). -/
theorem outA_row0 (c : Dev nD) (i : grid1.Coords) (a1 : Memref sig .tc .vmem S5000x128 .f32) (h1 : a1.IsWhole)
    (a2 : Memref sig .tc .vmem S1x128 .f32) (h2 : a2.IsWhole) (a3 : Memref sig .tc .vmem S2x128 .f32) (h3 : a3.IsWhole)
    (hc : cond1_0 i) (x0 : Vec Ideal S5000x128 .f32) (x1 : Vec Ideal S1x128 .f32) (j : Fin 128) :
    out1_A_2 (F := Ideal) c i a1 h1 a2 h2 a3 h3 hc x0 x1 (ix2 (0 : Fin 2) j)
      = ∑ r : Fin 5000, (x0 (ix2 r j) + x1 (ix2 (0 : Fin 1) j)) := by
  unfold out1_A_2
  rw [View.read_writes_eq_canon _ _ _ (cover1_A_2 c i a1 h1 a2 h2 a3 h3 hc x0 x1)]
  unfold kernelRun1_A
  dsimp only
  sl_unfold_words
  simp only [View.readAt_eq_ld, h1.read_unread, h2.read_unread, View.ld_unit_zero (S := S5000x128) hz2,
    View.ld_unit_zero (S := S1x128) hz2]
  refine (canon_row0 _ _ _ _ _ j).trans ?_
  refine (pay3_apply _ _ _ j).trans ?_
  rw [readCov_row0, View.canon_unit_zero hz2, pay1_apply, zero_add]

/-- Point 0, row 1: the block is zeroed first and the store to row 0 does not touch row 1, so row 1 ends at the tile's
    column sums of `(a + bias)²`. -/
theorem outA_row1 (c : Dev nD) (i : grid1.Coords) (a1 : Memref sig .tc .vmem S5000x128 .f32) (h1 : a1.IsWhole)
    (a2 : Memref sig .tc .vmem S1x128 .f32) (h2 : a2.IsWhole) (a3 : Memref sig .tc .vmem S2x128 .f32) (h3 : a3.IsWhole)
    (hc : cond1_0 i) (x0 : Vec Ideal S5000x128 .f32) (x1 : Vec Ideal S1x128 .f32) (j : Fin 128) :
    out1_A_2 (F := Ideal) c i a1 h1 a2 h2 a3 h3 hc x0 x1 (ix2 (1 : Fin 2) j)
      = ∑ r : Fin 5000, (x0 (ix2 r j) + x1 (ix2 (0 : Fin 1) j)) * (x0 (ix2 r j) + x1 (ix2 (0 : Fin 1) j)) := by
  unfold out1_A_2
  rw [View.read_writes_eq_canon _ _ _ (cover1_A_2 c i a1 h1 a2 h2 a3 h3 hc x0 x1)]
  unfold kernelRun1_A
  dsimp only
  sl_unfold_words
  simp only [View.readAt_eq_ld, h1.read_unread, h2.read_unread, View.ld_unit_zero (S := S5000x128) hz2,
    View.ld_unit_zero (S := S1x128) hz2]
  refine (canon_row1 _ _ _ j).trans ?_
  refine (pay4_apply _ _ _ j).trans ?_
  rw [readCov_row1, canon_skip_row0, View.canon_unit_zero hz2, pay1_apply, zero_add]

/-! ## The blocks the body sees -/

/-- The tile of the aggregate at point `t`. -/
abbrev ablk (c : Dev nD) (t : Fin cfg1.N) : S5000x128.Idx → EReal := iblk1 (F := Ideal) V c 0 t
/-- The bias row as the body finds it at point `t`. -/
abbrev bblk (c : Dev nD) (t : Fin cfg1.N) : S1x128.Idx → EReal := iblk1 (F := Ideal) V c 1 t

/-- The tile's block index is the point, the bias row's is zero: decided over the 20 points. -/
theorem index1 : ∀ t : Fin cfg1.N, (win1_0.index t 0 = t.val ∧ win1_0.index t 1 = 0) ∧ (win1_1.index t 0 = 0 ∧ win1_1.index t 1 = 0) :=
  (by decide +kernel : ∀ t : Fin grid1.N, (win1_0.index t 0 = t.val ∧ win1_0.index t 1 = 0) ∧ (win1_1.index t 0 = 0 ∧ win1_1.index t 1 = 0))

/-- Row `r` of tile `t` is row `5000 t + r` of the aggregate: a block's coordinate is its index times its size plus the
    coordinate inside it. -/
theorem ablk_apply (c : Dev nD) (t : Fin cfg1.N) (r : Fin 5000) (j : Fin 128) (hlt : 5000 * t.val + r.val < 100000) :
    ablk V c t (ix2 r j) = Arr.agg V c (ix2 ⟨5000 * t.val + r.val, hlt⟩ j) := by
  have hi := (index1 t).1
  unfold ablk iblk1
  rw [View.read_apply]
  show V c main_v45 _ = V c main_v45 _
  congr 1
  funext a
  apply Fin.ext
  match a with
  | ⟨0, _⟩ => show win1_0.index t 0 * 5000 + 1 * r.val = 5000 * t.val + r.val; rw [hi.1]; omega
  | ⟨1, _⟩ => show win1_0.index t 1 * 128 + 1 * j.val = j.val; rw [hi.2]; omega

/-- The bias row the body finds is the bias row, at every point. -/
theorem bblk_apply (c : Dev nD) (t : Fin cfg1.N) (j : Fin 128) :
    bblk V c t (ix2 (0 : Fin 1) j) = Arr.bias V c (ix2 (0 : Fin 1) j) := by
  have hi := (index1 t).2
  unfold bblk iblk1
  rw [View.read_apply]
  show V c main_v46 _ = V c main_v46 _
  congr 1
  funext a
  apply Fin.ext
  match a with
  | ⟨0, _⟩ => show win1_1.index t 0 * 1 + 1 * 0 = 0; rw [hi.1]
  | ⟨1, _⟩ => show win1_1.index t 1 * 128 + 1 * j.val = j.val; rw [hi.2]; omega

/-! ## The block after each point

By induction on the point: point 0 is the zeroing case, every later point adds its tile's sums to what the point before
left; the outer sum over tiles 0 … n + 1 is the sum over tiles 0 … n plus tile n + 1's term. -/

/-- After point `n`, row 0 holds the column sums of `a + bias` over the rows of tiles 0 … n. -/
theorem inv_row0 (c : Dev nD) (j : Fin 128) : ∀ (n : ℕ) (h : n < cfg1.N),
    outsAt1 (F := Ideal) V c n h (ix2 (0 : Fin 2) j)
      = ∑ t : Fin (n + 1), ∑ r : Fin 5000,
          (Arr.agg V c (ix2 ⟨5000 * t.val + r.val, by
              have := t.isLt; have := r.isLt; have hN : cfg1.N = 20 := N_1; omega⟩ j)
            + Arr.bias V c (ix2 (0 : Fin 1) j))
  | 0, h => by
    have hA : (⟨0, h⟩ : Fin cfg1.N).val % 20 = 0 := Nat.zero_mod 20
    rw [outsAt1_A V c ⟨0, h⟩ hA]
    refine (outA_row0 c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩)
      ((hcond1_0 ⟨0, h⟩).mpr hA) (ablk V c ⟨0, h⟩) (bblk V c ⟨0, h⟩) j).trans ?_
    rw [Fin.sum_univ_one]
    refine Finset.sum_congr rfl fun r _ => ?_
    rw [ablk_apply V c ⟨0, h⟩ r j (by have := r.isLt; show 5000 * 0 + r.val < 100000; omega), bblk_apply V c ⟨0, h⟩ j]
    rfl
  | n + 1, h => by
    have hN : cfg1.N = 20 := N_1
    have hB : ¬(⟨n + 1, h⟩ : Fin cfg1.N).val % 20 = 0 := by dsimp only; omega
    rw [outsAt1_B V c ⟨n + 1, h⟩ hB]
    dsimp only
    refine (outB_row0 c (grid1.coords ⟨n + 1, h⟩) (ms1_0 ⟨n + 1, h⟩) (hs1_0 ⟨n + 1, h⟩) (ms1_1 ⟨n + 1, h⟩) (hs1_1 ⟨n + 1, h⟩)
      (ms1_2 ⟨n + 1, h⟩) (hs1_2 ⟨n + 1, h⟩) (fun hh => hB ((hcond1_0 ⟨n + 1, h⟩).mp hh)) (ablk V c ⟨n + 1, h⟩) (bblk V c ⟨n + 1, h⟩)
      (outsAt1 (F := Ideal) V c n (Nat.lt_of_succ_lt h)) j).trans ?_
    rw [inv_row0 c j n (Nat.lt_of_succ_lt h), Fin.sum_univ_castSucc (n := n + 1)]
    refine congrArg₂ (· + ·) rfl ?_
    refine Finset.sum_congr rfl fun r _ => ?_
    rw [ablk_apply V c ⟨n + 1, h⟩ r j (by have := r.isLt; show 5000 * (n + 1) + r.val < 100000; omega), bblk_apply V c ⟨n + 1, h⟩ j]
    rfl

/-- After point `n`, row 1 holds the column sums of `(a + bias)²` over the rows of tiles 0 … n. -/
theorem inv_row1 (c : Dev nD) (j : Fin 128) : ∀ (n : ℕ) (h : n < cfg1.N),
    outsAt1 (F := Ideal) V c n h (ix2 (1 : Fin 2) j)
      = ∑ t : Fin (n + 1), ∑ r : Fin 5000,
          (Arr.agg V c (ix2 ⟨5000 * t.val + r.val, by
              have := t.isLt; have := r.isLt; have hN : cfg1.N = 20 := N_1; omega⟩ j)
            + Arr.bias V c (ix2 (0 : Fin 1) j))
          * (Arr.agg V c (ix2 ⟨5000 * t.val + r.val, by
              have := t.isLt; have := r.isLt; have hN : cfg1.N = 20 := N_1; omega⟩ j)
            + Arr.bias V c (ix2 (0 : Fin 1) j))
  | 0, h => by
    have hA : (⟨0, h⟩ : Fin cfg1.N).val % 20 = 0 := Nat.zero_mod 20
    rw [outsAt1_A V c ⟨0, h⟩ hA]
    refine (outA_row1 c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩)
      ((hcond1_0 ⟨0, h⟩).mpr hA) (ablk V c ⟨0, h⟩) (bblk V c ⟨0, h⟩) j).trans ?_
    rw [Fin.sum_univ_one]
    refine Finset.sum_congr rfl fun r _ => ?_
    rw [ablk_apply V c ⟨0, h⟩ r j (by have := r.isLt; show 5000 * 0 + r.val < 100000; omega), bblk_apply V c ⟨0, h⟩ j]
    rfl
  | n + 1, h => by
    have hN : cfg1.N = 20 := N_1
    have hB : ¬(⟨n + 1, h⟩ : Fin cfg1.N).val % 20 = 0 := by dsimp only; omega
    rw [outsAt1_B V c ⟨n + 1, h⟩ hB]
    dsimp only
    refine (outB_row1 c (grid1.coords ⟨n + 1, h⟩) (ms1_0 ⟨n + 1, h⟩) (hs1_0 ⟨n + 1, h⟩) (ms1_1 ⟨n + 1, h⟩) (hs1_1 ⟨n + 1, h⟩)
      (ms1_2 ⟨n + 1, h⟩) (hs1_2 ⟨n + 1, h⟩) (fun hh => hB ((hcond1_0 ⟨n + 1, h⟩).mp hh)) (ablk V c ⟨n + 1, h⟩) (bblk V c ⟨n + 1, h⟩)
      (outsAt1 (F := Ideal) V c n (Nat.lt_of_succ_lt h)) j).trans ?_
    rw [inv_row1 c j n (Nat.lt_of_succ_lt h), Fin.sum_univ_castSucc (n := n + 1)]
    refine congrArg₂ (· + ·) rfl ?_
    refine Finset.sum_congr rfl fun r _ => ?_
    rw [ablk_apply V c ⟨n + 1, h⟩ r j (by have := r.isLt; show 5000 * (n + 1) + r.val < 100000; omega), bblk_apply V c ⟨n + 1, h⟩ j]
    rfl

/-! ## The one write-back -/

/-- The last point. -/
abbrev tlast : Fin cfg1.N := ⟨19, by rw [show cfg1.N = 20 from N_1]; decide⟩

/-- What the block holds after the last point, as contents of the region's result array. -/
abbrev result (c : Dev nD) : Buf (Elt Ideal) ((c : Thread nD τ).loc main_v47) := outsAt1 (F := Ideal) V c 19 tlast.isLt

/-- At the last point the result's window sits at offset `(0, 0)` and spans `2 × 128`: it is the whole array. -/
theorem last_window :
    (win1_2.index tlast 0 * win1_2.size 0 = 0 ∧ win1_2.xsize (grid1.coords tlast) 0 = 2)
      ∧ (win1_2.index tlast 1 * win1_2.size 1 = 0 ∧ win1_2.xsize (grid1.coords tlast) 1 = 128) := by
  decide +kernel

/-- The block is written back once, after the last point, and a whole-array block read back is the array. -/
theorem flushed_eq (c : Dev nD) (t : Fin cfg1.N) (hf : (cfg1.win 2).flush t = true) :
    (dat1 (F := Ideal) V c).flushed 2 t = ((cfg1.win 2).blk t).view.read (Elt Ideal) (result V c) := by
  have hN : cfg1.N = 20 := N_1
  have h19 : t.val = 19 := by have := (flush1_2 t).mp hf; have := t.isLt; omega
  obtain rfl : t = tlast := Fin.ext h19
  show (cfg1.win 2).cut (grid1.coords tlast) ((dat1 (F := Ideal) V c).after 2 tlast) = _
  rw [after1_2]
  have hz' : (fun a => win1_2.index tlast a * main_v47.ty.shape.size a) = fun _ => 0 := funext fun a => by fin_cases a <;> decide
  exact (Memref.read_access_unit_zero (Elt Ideal) main_v47 hz' (fun a => by rw [congrFun hz' a]; simp) (result V c)).symm

/-- Every entry of the result array lies in the block written back after the last point. -/
theorem mem_last_block (i : S2x128.Idx) : i ∈ ((cfg1.win 2).blk tlast).view.set := by
  show i ∈ ((View.whole main_v47).slice (win1_2.rect tlast)).set
  rw [View.set_slice_whole, Rect.mem_set_unit]
  intro a
  match a with
  | ⟨0, _⟩ =>
    have h0 : (i 0 : Nat) < 2 := (i 0).isLt
    show win1_2.index tlast 0 * win1_2.size 0 ≤ (i 0 : Nat)
      ∧ (i 0 : Nat) < win1_2.index tlast 0 * win1_2.size 0 + win1_2.xsize (grid1.coords tlast) 0
    rw [last_window.1.1, last_window.1.2]; omega
  | ⟨1, _⟩ =>
    have h1 : (i 1 : Nat) < 128 := (i 1).isLt
    show win1_2.index tlast 1 * win1_2.size 1 ≤ (i 1 : Nat)
      ∧ (i 1 : Nat) < win1_2.index tlast 1 * win1_2.size 1 + win1_2.xsize (grid1.coords tlast) 1
    rw [last_window.2.1, last_window.2.2]; omega

/-- So the region leaves its result array at what the block holds after the last point. -/
theorem final_stats (c : Dev nD) : Arr.statsOut V c = result V c :=
  (dat1 (F := Ideal) V c).arrAt_eq_of_cover 2 (result V c) (flushed_eq V c) fun i =>
    ⟨tlast, (flush1_2 tlast).mpr rfl, mem_last_block i⟩

/-- Row 0 of the region's result: the column sums of `a + bias` over all rows. -/
theorem stats_sum (c : Dev nD) (j : Fin 128) :
    Arr.statsOut V c (ix2 (0 : Fin 2) j) = ∑ n : Fin 100000, (Arr.agg V c (ix2 n j) + Arr.bias V c (ix2 (0 : Fin 1) j)) := by
  rw [final_stats V c]
  refine (inv_row0 V c j 19 tlast.isLt).trans ?_
  exact Cert.Moments.sum_tiles fun n => Arr.agg V c (ix2 n j) + Arr.bias V c (ix2 (0 : Fin 1) j)

/-- Row 1 of the region's result: the column sums of `(a + bias)²` over all rows. -/
theorem stats_sumsq (c : Dev nD) (j : Fin 128) :
    Arr.statsOut V c (ix2 (1 : Fin 2) j)
      = ∑ n : Fin 100000, (Arr.agg V c (ix2 n j) + Arr.bias V c (ix2 (0 : Fin 1) j)) * (Arr.agg V c (ix2 n j) + Arr.bias V c (ix2 (0 : Fin 1) j)) := by
  rw [final_stats V c]
  refine (inv_row1 V c j 19 tlast.isLt).trans ?_
  exact Cert.Moments.sum_tiles fun n =>
    (Arr.agg V c (ix2 n j) + Arr.bias V c (ix2 (0 : Fin 1) j)) * (Arr.agg V c (ix2 n j) + Arr.bias V c (ix2 (0 : Fin 1) j))

end Cert.KernelIdeal.StatsRegion

end
-- ==== Proof.FinalizeRegion.lean ====
/-
  The third region: normalize, scale, shift, clamp, add the input, clamp.

  The rows are cut into 20 tiles of 5000; the five per-channel rows (bias, mean, variance, scale, shift) are whole
  one-row blocks at every tile. The body is pointwise in the row, so entry `(5000 t + r, q)` of the result is
  `max (max (((a + bias − mean) · rsqrt (var + ε)) · γ + β) 0 + x) 0` read at that row and channel.
-/
import proofs.«172055_j41918880809282_1_alg».proof.Proof.KernelArrays
import proofs.«172055_j41918880809282_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.FinalizeRegion

open Cert.KernelIdeal Cert.KernelIdeal.Gen

variable (V : (c : Dev nD) → (b : Ref sig .tc) → Buf (Elt Ideal) ((c : Thread nD τ).loc b))

/-- The body's arithmetic at row `p`, channel `q`: the five one-row operands are read at row 0 of their rows, the
    two constants are the words the body spells. -/
theorem payload_entry (x0 x1 : Vec Ideal S5000x128 .f32) (x2 x3 x4 x5 x6 : Vec Ideal S1x128 .f32) (p : Fin 5000) (q : Fin 128) :
    k2_pay1 x0 x1 x2 x3 x4 x5 x6 (ix2 p q)
      = max (max ((x0 (ix2 p q) + x2 (ix2 (0 : Fin 1) q) - x3 (ix2 (0 : Fin 1) q))
                    * Ideal.rsqrt (x4 (ix2 (0 : Fin 1) q) + Cert.Spec.eps)
                    * x5 (ix2 (0 : Fin 1) q)
                  + x6 (ix2 (0 : Fin 1) q)) Cert.Spec.zero
              + x1 (ix2 p q)) Cert.Spec.zero := by
  unfold k2_pay1 Cert.Spec.eps Cert.Spec.zero
  simp only [shapeCast_self, maximumf_apply, addf_apply, mulf_apply, subf_apply, broadcast_apply, broadcastTo_1b_ab_apply]
  rfl

/-- The rectangle every access of the body goes through starts at the origin. -/
theorem offsets_zero : (![0, 0] : Fin 2 → Nat) = fun _ => 0 := funext fun a => by fin_cases a <;> rfl

/-- The windows' block indices at every point, decided over the 20 points: the two tiled inputs and the output sit at row
    block `t`, the five one-row operands at block (0, 0). -/
theorem block_indices : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = t.val ∧ win2_7.index t (1 : Fin 2) = 0) :=
  (by decide +kernel : ∀ t : Fin grid2.N, _)

/-- The aggregate's tile at point `t`, at its literal shape. -/
abbrev aggTile (c : Dev nD) (t : Fin cfg2.N) : Vec Ideal S5000x128 .f32 := iblk2 (F := Ideal) V c 0 t

/-- Row `p` of tile `t` is row `5000 t + p` of the array: a block's coordinate is its block index times the block size
    plus the coordinate inside the block. -/
theorem aggTile_apply (c : Dev nD) (t : Fin cfg2.N) (p : Fin 5000) (q : Fin 128) (n : Fin 100000)
    (hn : n.val = 5000 * t.val + p.val) : aggTile V c t (ix2 p q) = Arr.agg V c (ix2 n q) := by
  obtain ⟨⟨e0, e1⟩, -⟩ := block_indices t
  show ((cfg2.win 0).blk t).view.read (Elt Ideal) (V c (Pipeline.arrRef spec2 0)) (ix2 p q) = _
  rw [View.read_apply]
  show V c main_v45 (((cfg2.win 0).blk t).view.emb (ix2 p q)) = V c main_v45 (ix2 n q)
  congr 1
  funext a; apply Fin.ext
  match a with
  | ⟨0, _⟩ => show win2_0.index t (0 : Fin 2) * 5000 + 1 * p.val = n.val; rw [e0, hn]; omega
  | ⟨1, _⟩ => show win2_0.index t (1 : Fin 2) * 128 + 1 * q.val = q.val; rw [e1]; omega

/-- The input's tile at point `t`, at its literal shape. -/
abbrev xTile (c : Dev nD) (t : Fin cfg2.N) : Vec Ideal S5000x128 .f32 := iblk2 (F := Ideal) V c 1 t

/-- Row `p` of tile `t` is row `5000 t + p` of the array: a block's coordinate is its block index times the block size
    plus the coordinate inside the block. -/
theorem xTile_apply (c : Dev nD) (t : Fin cfg2.N) (p : Fin 5000) (q : Fin 128) (n : Fin 100000)
    (hn : n.val = 5000 * t.val + p.val) : xTile V c t (ix2 p q) = Arr.xin V c (ix2 n q) := by
  obtain ⟨-, ⟨e0, e1⟩, -⟩ := block_indices t
  show ((cfg2.win 1).blk t).view.read (Elt Ideal) (V c (Pipeline.arrRef spec2 1)) (ix2 p q) = _
  rw [View.read_apply]
  show V c main_arg0 (((cfg2.win 1).blk t).view.emb (ix2 p q)) = V c main_arg0 (ix2 n q)
  congr 1
  funext a; apply Fin.ext
  match a with
  | ⟨0, _⟩ => show win2_1.index t (0 : Fin 2) * 5000 + 1 * p.val = n.val; rw [e0, hn]; omega
  | ⟨1, _⟩ => show win2_1.index t (1 : Fin 2) * 128 + 1 * q.val = q.val; rw [e1]; omega

/-- The bias window's block at point `t`, at its literal shape. -/
abbrev biasRow (c : Dev nD) (t : Fin cfg2.N) : Vec Ideal S1x128 .f32 := iblk2 (F := Ideal) V c 2 t

/-- It is the whole one-row array: block (0, 0) of a [1,128] array cut in [1,128] blocks. -/
theorem biasRow_apply (c : Dev nD) (t : Fin cfg2.N) (q : Fin 128) :
    biasRow V c t (ix2 (0 : Fin 1) q) = Arr.bias V c (ix2 (0 : Fin 1) q) := by
  obtain ⟨-, -, ⟨e0, e1⟩, -⟩ := block_indices t
  show ((cfg2.win 2).blk t).view.read (Elt Ideal) (V c (Pipeline.arrRef spec2 2)) (ix2 (0 : Fin 1) q) = _
  rw [View.read_apply]
  show V c main_v46 (((cfg2.win 2).blk t).view.emb (ix2 (0 : Fin 1) q)) = V c main_v46 (ix2 (0 : Fin 1) q)
  congr 1
  funext a; apply Fin.ext
  match a with
  | ⟨0, _⟩ => show win2_2.index t (0 : Fin 2) * 1 + 1 * (0 : Fin 1).val = (0 : Fin 1).val; rw [e0]; rfl
  | ⟨1, _⟩ => show win2_2.index t (1 : Fin 2) * 128 + 1 * q.val = q.val; rw [e1]; omega

/-- The mean window's block at point `t`, at its literal shape. -/
abbrev meanRow (c : Dev nD) (t : Fin cfg2.N) : Vec Ideal S1x128 .f32 := iblk2 (F := Ideal) V c 3 t

/-- It is the whole one-row array: block (0, 0) of a [1,128] array cut in [1,128] blocks. -/
theorem meanRow_apply (c : Dev nD) (t : Fin cfg2.N) (q : Fin 128) :
    meanRow V c t (ix2 (0 : Fin 1) q) = Arr.mean V c (ix2 (0 : Fin 1) q) := by
  obtain ⟨-, -, -, ⟨e0, e1⟩, -⟩ := block_indices t
  show ((cfg2.win 3).blk t).view.read (Elt Ideal) (V c (Pipeline.arrRef spec2 3)) (ix2 (0 : Fin 1) q) = _
  rw [View.read_apply]
  show V c main_v58 (((cfg2.win 3).blk t).view.emb (ix2 (0 : Fin 1) q)) = V c main_v58 (ix2 (0 : Fin 1) q)
  congr 1
  funext a; apply Fin.ext
  match a with
  | ⟨0, _⟩ => show win2_3.index t (0 : Fin 2) * 1 + 1 * (0 : Fin 1).val = (0 : Fin 1).val; rw [e0]; rfl
  | ⟨1, _⟩ => show win2_3.index t (1 : Fin 2) * 128 + 1 * q.val = q.val; rw [e1]; omega

/-- The variance window's block at point `t`, at its literal shape. -/
abbrev varRow (c : Dev nD) (t : Fin cfg2.N) : Vec Ideal S1x128 .f32 := iblk2 (F := Ideal) V c 4 t

/-- It is the whole one-row array: block (0, 0) of a [1,128] array cut in [1,128] blocks. -/
theorem varRow_apply (c : Dev nD) (t : Fin cfg2.N) (q : Fin 128) :
    varRow V c t (ix2 (0 : Fin 1) q) = Arr.var V c (ix2 (0 : Fin 1) q) := by
  obtain ⟨-, -, -, -, ⟨e0, e1⟩, -⟩ := block_indices t
  show ((cfg2.win 4).blk t).view.read (Elt Ideal) (V c (Pipeline.arrRef spec2 4)) (ix2 (0 : Fin 1) q) = _
  rw [View.read_apply]
  show V c main_v59 (((cfg2.win 4).blk t).view.emb (ix2 (0 : Fin 1) q)) = V c main_v59 (ix2 (0 : Fin 1) q)
  congr 1
  funext a; apply Fin.ext
  match a with
  | ⟨0, _⟩ => show win2_4.index t (0 : Fin 2) * 1 + 1 * (0 : Fin 1).val = (0 : Fin 1).val; rw [e0]; rfl
  | ⟨1, _⟩ => show win2_4.index t (1 : Fin 2) * 128 + 1 * q.val = q.val; rw [e1]; omega

/-- The scale window's block at point `t`, at its literal shape. -/
abbrev gammaRow (c : Dev nD) (t : Fin cfg2.N) : Vec Ideal S1x128 .f32 := iblk2 (F := Ideal) V c 5 t

/-- It is the whole one-row array: block (0, 0) of a [1,128] array cut in [1,128] blocks. -/
theorem gammaRow_apply (c : Dev nD) (t : Fin cfg2.N) (q : Fin 128) :
    gammaRow V c t (ix2 (0 : Fin 1) q) = Arr.gamma V c (ix2 (0 : Fin 1) q) := by
  obtain ⟨-, -, -, -, -, ⟨e0, e1⟩, -⟩ := block_indices t
  show ((cfg2.win 5).blk t).view.read (Elt Ideal) (V c (Pipeline.arrRef spec2 5)) (ix2 (0 : Fin 1) q) = _
  rw [View.read_apply]
  show V c main_v60 (((cfg2.win 5).blk t).view.emb (ix2 (0 : Fin 1) q)) = V c main_v60 (ix2 (0 : Fin 1) q)
  congr 1
  funext a; apply Fin.ext
  match a with
  | ⟨0, _⟩ => show win2_5.index t (0 : Fin 2) * 1 + 1 * (0 : Fin 1).val = (0 : Fin 1).val; rw [e0]; rfl
  | ⟨1, _⟩ => show win2_5.index t (1 : Fin 2) * 128 + 1 * q.val = q.val; rw [e1]; omega

/-- The shift window's block at point `t`, at its literal shape. -/
abbrev betaRow (c : Dev nD) (t : Fin cfg2.N) : Vec Ideal S1x128 .f32 := iblk2 (F := Ideal) V c 6 t

/-- It is the whole one-row array: block (0, 0) of a [1,128] array cut in [1,128] blocks. -/
theorem betaRow_apply (c : Dev nD) (t : Fin cfg2.N) (q : Fin 128) :
    betaRow V c t (ix2 (0 : Fin 1) q) = Arr.beta V c (ix2 (0 : Fin 1) q) := by
  obtain ⟨-, -, -, -, -, -, ⟨e0, e1⟩, -⟩ := block_indices t
  show ((cfg2.win 6).blk t).view.read (Elt Ideal) (V c (Pipeline.arrRef spec2 6)) (ix2 (0 : Fin 1) q) = _
  rw [View.read_apply]
  show V c main_v61 (((cfg2.win 6).blk t).view.emb (ix2 (0 : Fin 1) q)) = V c main_v61 (ix2 (0 : Fin 1) q)
  congr 1
  funext a; apply Fin.ext
  match a with
  | ⟨0, _⟩ => show win2_6.index t (0 : Fin 2) * 1 + 1 * (0 : Fin 1).val = (0 : Fin 1).val; rw [e0]; rfl
  | ⟨1, _⟩ => show win2_6.index t (1 : Fin 2) * 128 + 1 * q.val = q.val; rw [e1]; omega

/-- Entry `(n, j)` of the result, from the entry arrays. -/
abbrev entry (c : Dev nD) (n : Fin 100000) (j : Fin 128) : EReal :=
  max (max ((Arr.agg V c (ix2 n j) + Arr.bias V c (ix2 (0 : Fin 1) j) - Arr.mean V c (ix2 (0 : Fin 1) j))
                * Ideal.rsqrt (Arr.var V c (ix2 (0 : Fin 1) j) + Cert.Spec.eps)
                * Arr.gamma V c (ix2 (0 : Fin 1) j)
              + Arr.beta V c (ix2 (0 : Fin 1) j)) Cert.Spec.zero
          + Arr.xin V c (ix2 n j)) Cert.Spec.zero

/-- The result as one function of the whole arrays, index by index. -/
abbrev result (c : Dev nD) : S100000x128.Idx → EReal := fun i => entry V c (i 0) (i 1)

/-- What point `t` writes back is tile `t` of `result`. -/
theorem writeback_tile (c : Dev nD) (t : Fin cfg2.N) :
    (dat2 (F := Ideal) V c).flushed 7 t = ((cfg2.win 7).blk t).view.read (Elt Ideal) (result V c) := by
  show (cfg2.win 7).cut (grid2.coords t) ((dat2 (F := Ideal) V c).after 7 t) = _
  rw [after2_7]
  unfold out2_7
  rw [View.canon_unit_zero offsets_zero]
  simp only [View.ld_unit_zero (S := S5000x128) offsets_zero, View.ld_unit_zero (S := S1x128) offsets_zero]
  funext j
  obtain ⟨p, q, rfl⟩ : ∃ (p : Fin 5000) (q : Fin 128), j = ix2 p q := ⟨j 0, j 1, eq_ix2 j⟩
  have ht : t.val < 20 := Nat.lt_of_lt_of_eq t.isLt N_2
  have hp : p.val < 5000 := p.isLt
  obtain ⟨-, -, -, -, -, -, -, e0, e1⟩ := block_indices t
  have hemb : ((cfg2.win 7).blk t).view.emb (ix2 p q) = ix2 (⟨5000 * t.val + p.val, by omega⟩ : Fin 100000) q := by
    funext a; apply Fin.ext
    match a with
    | ⟨0, _⟩ => show win2_7.index t (0 : Fin 2) * 5000 + 1 * p.val = 5000 * t.val + p.val; rw [e0]; omega
    | ⟨1, _⟩ => show win2_7.index t (1 : Fin 2) * 128 + 1 * q.val = q.val; rw [e1]; omega
  show k2_pay1 (aggTile V c t) (xTile V c t) (biasRow V c t) (meanRow V c t) (varRow V c t) (gammaRow V c t) (betaRow V c t) (ix2 p q)
    = result V c (((cfg2.win 7).blk t).view.emb (ix2 p q))
  refine (payload_entry (aggTile V c t) (xTile V c t) (biasRow V c t) (meanRow V c t) (varRow V c t) (gammaRow V c t) (betaRow V c t) p q).trans ?_
  rw [hemb, aggTile_apply V c t p q ⟨5000 * t.val + p.val, by omega⟩ rfl, xTile_apply V c t p q ⟨5000 * t.val + p.val, by omega⟩ rfl,
    biasRow_apply V c t q, meanRow_apply V c t q, varRow_apply V c t q, gammaRow_apply V c t q, betaRow_apply V c t q]

/-- An index of the result's array is in tile `t` iff each coordinate is in the tile's range on its axis. -/
theorem mem_tile (t : Fin cfg2.N) (i : S100000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v62).slice (win2_7.rect t)).set ↔ _
  rw [View.set_slice_whole, Rect.mem_set_unit]
  exact Iff.rfl

/-- Row `r` lies in tile `r / 5000`: the 20 tiles cover the array. -/
theorem covered (i : S100000x128.Idx) :
    ∃ t : Fin cfg2.N, (cfg2.win 7).flush t = true ∧ i ∈ ((cfg2.win 7).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, by rw [show cfg2.N = 20 from N_2]; omega⟩, rfl⟩
  obtain ⟨-, -, -, -, -, -, -, e0, e1⟩ := block_indices t
  refine ⟨t, flush2_7 t, ?_⟩
  rw [mem_tile]
  intro a
  match a with
  | ⟨0, _⟩ => show win2_7.index t (0 : Fin 2) * 5000 ≤ (i 0).val ∧ (i 0).val < win2_7.index t (0 : Fin 2) * 5000 + 5000; rw [e0, ht]; omega
  | ⟨1, _⟩ => show win2_7.index t (1 : Fin 2) * 128 ≤ (i 1).val ∧ (i 1).val < win2_7.index t (1 : Fin 2) * 128 + 128; rw [e1]; omega

/-- The result's array after the region is `result` of the entry arrays. -/
theorem finalOut_eq (c : Dev nD) : Arr.finalOut V c = result V c :=
  (dat2 (F := Ideal) V c).arrAt_eq_of_cover 7 (result V c) (fun t _ => writeback_tile V c t) covered

/-- Entry `(n, j)` of the region's result. -/
theorem out_entry (c : Dev nD) (n : Fin 100000) (j : Fin 128) :
    Arr.finalOut V c (ix2 n j)
      = max (max ((Arr.agg V c (ix2 n j) + Arr.bias V c (ix2 (0 : Fin 1) j) - Arr.mean V c (ix2 (0 : Fin 1) j))
                    * Ideal.rsqrt (Arr.var V c (ix2 (0 : Fin 1) j) + Cert.Spec.eps)
                    * Arr.gamma V c (ix2 (0 : Fin 1) j)
                  + Arr.beta V c (ix2 (0 : Fin 1) j)) Cert.Spec.zero
              + Arr.xin V c (ix2 n j)) Cert.Spec.zero :=
  congrFun (finalOut_eq V c) (ix2 n j)

end Cert.KernelIdeal.FinalizeRegion

end
-- ==== Proof.RefValue.lean ====
/-
  The plain program, entry by entry.

  Its result is a composition of whole-array operations of the six arguments. Read at row `n` and channel `j`, every
  broadcast reads its operand at the channel (or at the one scalar), every pointwise operation acts on the entries, and
  the two column reductions are the initial zero plus the sum over the rows. So the intermediate array
  `y = a + bias` has the entry `a (n, j) + b j`, and the result's entry is the normalization of `y` by `y`'s own column
  mean and its variance in the squared-deviation form, scaled, shifted and clamped, plus the input, clamped.
-/
import proofs.«172055_j41918880809282_1_alg».proof.Defs
import proofs.«172055_j41918880809282_1_alg».proof.Proof.Gen.ReferenceIdeal.Run
import proofs.«172055_j41918880809282_1_alg».proof.Proof.Gen.ReferenceIdeal.Read
import proofs.«172055_j41918880809282_1_alg».proof.Proof.Spec

noncomputable section

namespace Cert.ReferenceIdeal.RefValue

open Idealize.ShloMosaic Idealize.ShloMosaic.TcCoe Idealize.SL.Sem Idealize.ShloMosaic.ValueIdx
open Cert.ReferenceIdeal Cert.ReferenceIdeal.Read

variable (x : (⟨S100000x128, .f32⟩ : BufTy).Contents (Elt Ideal)) (ei : (⟨S2x600000, .i32⟩ : BufTy).Contents (Elt Ideal)) (W : (⟨S128x128, .f32⟩ : BufTy).Contents (Elt Ideal)) (b γ β : (⟨S128, .f32⟩ : BufTy).Contents (Elt Ideal))

/-! ## The index functions of the broadcasts and of the column sums, at coordinates -/

/-- A row-of-channels broadcast followed by the row broadcast reads the channel. -/
theorem idx_chan (n : Fin 100000) (j : Fin 128) : idx_main_v46 (idx_main_v47 (ix2 n j)) = ix1 j :=
  funext fun a => Fin.ext (by match a with | ⟨0, _⟩ => rfl)

/-- The column sum at channel `j` runs over the entries `(k, j)`. -/
theorem idx_col49 (j : Fin 128) (k : Fin 100000) : idx_main_v49 (ix1 j) k = ix2 k j :=
  funext fun a => Fin.ext (by match a with | ⟨0, _⟩ => rfl | ⟨1, _⟩ => rfl)

theorem idx_col56 (j : Fin 128) (k : Fin 100000) : idx_main_v56 (ix1 j) k = ix2 k j :=
  funext fun a => Fin.ext (by match a with | ⟨0, _⟩ => rfl | ⟨1, _⟩ => rfl)

theorem idx_chan53 (n : Fin 100000) (j : Fin 128) : idx_main_v52 (idx_main_v53 (ix2 n j)) = ix1 j :=
  funext fun a => Fin.ext (by match a with | ⟨0, _⟩ => rfl)

theorem idx_chan60 (n : Fin 100000) (j : Fin 128) : idx_main_v59 (idx_main_v60 (ix2 n j)) = ix1 j :=
  funext fun a => Fin.ext (by match a with | ⟨0, _⟩ => rfl)

theorem idx_chan66 (n : Fin 100000) (j : Fin 128) : idx_main_v65 (idx_main_v66 (ix2 n j)) = ix1 j :=
  funext fun a => Fin.ext (by match a with | ⟨0, _⟩ => rfl)

theorem idx_chan69 (n : Fin 100000) (j : Fin 128) : idx_main_v68 (idx_main_v69 (ix2 n j)) = ix1 j :=
  funext fun a => Fin.ext (by match a with | ⟨0, _⟩ => rfl)

theorem idx_chan72 (n : Fin 100000) (j : Fin 128) : idx_main_v71 (idx_main_v72 (ix2 n j)) = ix1 j :=
  funext fun a => Fin.ext (by match a with | ⟨0, _⟩ => rfl)

/-- The array `y` is the aggregate plus the bias of the channel. -/
theorem y_entry (n : Fin 100000) (j : Fin 128) :
    val_main_v48 (F := Ideal) x ei W b (ix2 n j) = val_main_v45 (F := Ideal) x ei W (ix2 n j) + b (ix1 j) := by
  rw [val_main_v48_apply, val_main_v47_apply, val_main_v46_apply, idx_chan, Ideal.addf_def]

/-! ## The layers of the normalization -/

/-- The mean stage at channel `j` is the column sum of `y` divided by the number of rows. -/
theorem mean_entry (j : Fin 128) :
    val_main_v51 (F := Ideal) x ei W b (ix1 j) = Cert.Spec.meanOf (val_main_v48 (F := Ideal) x ei W b) j := by
  rw [val_main_v51_apply, val_main_v49_apply, val_main_v50_apply, val_main_cst_10_apply, val_main_cst_9_apply]
  simp only [idx_col49, Ideal.hostDivf_def, Ideal.ofBits_def, Ideal.ofBits_zero_f32, zero_add, Cert.Spec.meanOf,
    Cert.Spec.colSum, Cert.Spec.nrows]

/-- The deviation stage (first copy) at `(n, j)`: the entry of `y` minus the mean of its channel. -/
theorem dev54_entry (n : Fin 100000) (j : Fin 128) :
    val_main_v54 (F := Ideal) x ei W b (ix2 n j)
      = val_main_v48 (F := Ideal) x ei W b (ix2 n j) - Cert.Spec.meanOf (val_main_v48 (F := Ideal) x ei W b) j := by
  rw [val_main_v54_apply, val_main_v53_apply, val_main_v52_apply, idx_chan53, mean_entry, Ideal.subf_def]

/-- The deviation stage (second copy) at `(n, j)`. -/
theorem dev61_entry (n : Fin 100000) (j : Fin 128) :
    val_main_v61 (F := Ideal) x ei W b (ix2 n j)
      = val_main_v48 (F := Ideal) x ei W b (ix2 n j) - Cert.Spec.meanOf (val_main_v48 (F := Ideal) x ei W b) j := by
  rw [val_main_v61_apply, val_main_v60_apply, val_main_v59_apply, idx_chan60, mean_entry, Ideal.subf_def]

/-- The variance stage at channel `j`: the column sum of the squared deviations divided by the number of rows. -/
theorem var_entry (j : Fin 128) :
    val_main_v58 (F := Ideal) x ei W b (ix1 j) = Cert.Spec.varR (val_main_v48 (F := Ideal) x ei W b) j := by
  rw [val_main_v58_apply, val_main_v56_apply, val_main_v57_apply, val_main_cst_12_apply, val_main_cst_11_apply]
  have hsum : ∑ k : Fin 100000, val_main_v55 (F := Ideal) x ei W b (idx_main_v56 (ix1 j) k)
      = ∑ k : Fin 100000, (val_main_v48 (F := Ideal) x ei W b (ix2 k j) - Cert.Spec.meanOf (val_main_v48 (F := Ideal) x ei W b) j)
          * (val_main_v48 (F := Ideal) x ei W b (ix2 k j) - Cert.Spec.meanOf (val_main_v48 (F := Ideal) x ei W b) j) :=
    Finset.sum_congr rfl fun k _ => by
      rw [idx_col56, val_main_v55_apply, dev54_entry, Ideal.mulf_def]
  rw [hsum]
  simp only [Ideal.hostDivf_def, Ideal.ofBits_def, Ideal.ofBits_zero_f32, zero_add, Cert.Spec.varR, Cert.Spec.nrows]

/-- The reciprocal standard deviation at channel `j`. -/
theorem rstd_entry (j : Fin 128) :
    val_main_v64 (F := Ideal) x ei W b (ix1 j)
      = Ideal.rsqrt (Cert.Spec.varR (val_main_v48 (F := Ideal) x ei W b) j + Cert.Spec.eps) := by
  rw [val_main_v64_apply, val_main_v63_apply, var_entry, val_main_v62_apply, val_main_cst_13_apply]
  simp only [Ideal.hostUnary_rsqrt_def, Ideal.addf_def, Ideal.ofBits_def, Cert.Spec.eps]

/-- The result's entry: `y` normalized by its column mean and its squared-deviation variance, scaled by `γ`, shifted
    by `β`, clamped at zero, plus the input, clamped at zero. -/
theorem ref_entry (n : Fin 100000) (j : Fin 128) :
    val_main_v76 (F := Ideal) x ei W b γ β (ix2 n j)
      = Cert.Spec.outOf (val_main_v48 (F := Ideal) x ei W b) x
          (Cert.Spec.meanOf (val_main_v48 (F := Ideal) x ei W b)) (Cert.Spec.varR (val_main_v48 (F := Ideal) x ei W b))
          (fun q => γ (ix1 q)) (fun q => β (ix1 q)) n j := by
  rw [val_main_v76_apply, val_main_call1_v0_apply, val_main_call1_cst_apply, val_main_v75_apply, val_main_v74_apply,
    val_main_call0_v0_apply, val_main_call0_cst_apply, val_main_v73_apply, val_main_v72_apply, val_main_v71_apply,
    val_main_v70_apply, val_main_v69_apply, val_main_v68_apply, val_main_v67_apply, val_main_v66_apply,
    val_main_v65_apply, dev61_entry, idx_chan66, idx_chan69, idx_chan72, rstd_entry]
  simp only [Ideal.maximumf_def, Ideal.addf_def, Ideal.mulf_def, Ideal.ofBits_def, Cert.Spec.outOf, Cert.Spec.zero]

end Cert.ReferenceIdeal.RefValue

end
-- ==== Proof.KernelValue.lean ====
/-
  The tiled program's result, entry by entry, in the plain program's vocabulary.

  Region by region: the first region's product is the plain product `h`; the host operations after it are the plain
  program's, so the aggregate is the plain aggregate and `a + bias` is the plain array `y`; the second region's two
  rows are the column sums of `y` and of `y²`; the host operations after it make the mean `(∑ y) / N` and the
  variance `(∑ y²) / N − mean²`; the third region normalizes `y` with them. So the result's entry is the common
  final formula at `y`, its mean, and its variance in the mean-of-squares form.
-/
import proofs.«172055_j41918880809282_1_alg».proof.Proof.HostStretches
import proofs.«172055_j41918880809282_1_alg».proof.Proof.MatmulRegion
import proofs.«172055_j41918880809282_1_alg».proof.Proof.StatsRegion
import proofs.«172055_j41918880809282_1_alg».proof.Proof.FinalizeRegion
import proofs.«172055_j41918880809282_1_alg».proof.Proof.RefValue

set_option maxRecDepth 16384

noncomputable section

namespace Cert.KernelIdeal.KernelValue

open Idealize.ShloMosaic Idealize.ShloMosaic.TcCoe Idealize.SL.Sem Idealize.ShloMosaic.ValueIdx
open Cert.KernelIdeal Cert.KernelIdeal.Gen Cert.KernelIdeal.HostStretches

variable (m : (ℓ : Loc nD τ sig) → Buf (Elt Ideal) ℓ) (ρ : Dev nD → PrngReg)

/-- The six arguments as launched, at the types the plain program's stages take them at. -/
abbrev xA (c : Dev nD) : (⟨Cert.ReferenceIdeal.S100000x128, .f32⟩ : BufTy).Contents (Elt Ideal) := m ((c : Thread nD τ).loc main_arg0)
abbrev eA (c : Dev nD) : (⟨Cert.ReferenceIdeal.S2x600000, .i32⟩ : BufTy).Contents (Elt Ideal) := m ((c : Thread nD τ).loc main_arg1)
abbrev wA (c : Dev nD) : (⟨Cert.ReferenceIdeal.S128x128, .f32⟩ : BufTy).Contents (Elt Ideal) := m ((c : Thread nD τ).loc main_arg2)
abbrev bA (c : Dev nD) : (⟨Cert.ReferenceIdeal.S128, .f32⟩ : BufTy).Contents (Elt Ideal) := m ((c : Thread nD τ).loc main_arg3)
abbrev gA (c : Dev nD) : (⟨Cert.ReferenceIdeal.S128, .f32⟩ : BufTy).Contents (Elt Ideal) := m ((c : Thread nD τ).loc main_arg4)
abbrev tA (c : Dev nD) : (⟨Cert.ReferenceIdeal.S128, .f32⟩ : BufTy).Contents (Elt Ideal) := m ((c : Thread nD τ).loc main_arg5)
/-- The plain program's array `y` of the launched arguments. -/
abbrev yA (c : Dev nD) : Cert.Spec.SN.Idx → EReal :=
  Cert.ReferenceIdeal.Read.val_main_v48 (F := Ideal) (xA m c) (eA m c) (wA m c) (bA m c)

/-- After the first region the product buffer holds the plain product. -/
theorem prod_W1 (c : Dev nD) :
    (W1 (F := Ideal) m ρ c (Proc.devRef .tc main_v0) : S100000x128.Idx → EReal)
      = Cert.ReferenceIdeal.Read.val_main_v4 (F := Ideal) (m ((c : Thread nD τ).loc main_arg0)) (m ((c : Thread nD τ).loc main_arg2)) :=
  (W1_arr m ρ c 2).trans (Cert.KernelIdeal.MatmulRegion.prod_array (V0 m ρ) c)

/-- The aggregate the second and third regions read is the plain aggregate. -/
theorem agg_eq (c : Dev nD) :
    Arr.agg (V2 (F := Ideal) m ρ) c = Cert.ReferenceIdeal.Read.val_main_v45 (F := Ideal) (xA m c) (eA m c) (wA m c) :=
  agg_of_prod m ρ c (prod_W1 m ρ c)

/-- The aggregate plus the bias row is the plain `y`. -/
theorem y_eq (c : Dev nD) (n : Fin 100000) (j : Fin 128) :
    Arr.agg (V2 (F := Ideal) m ρ) c (ix2 n j) + Arr.bias (V2 (F := Ideal) m ρ) c (ix2 (0 : Fin 1) j) = yA m c (ix2 n j) := by
  rw [agg_eq, bias_row]
  exact (Cert.ReferenceIdeal.RefValue.y_entry (xA m c) (eA m c) (wA m c) (bA m c) n j).symm

/-- The mean row is `y`'s column mean. -/
theorem mean_eq (c : Dev nD) (j : Fin 128) :
    Arr.mean (V4 (F := Ideal) m ρ) c (ix2 (0 : Fin 1) j) = Cert.Spec.meanOf (yA m c) j := by
  rw [mean_row, stats_V3, Cert.KernelIdeal.StatsRegion.stats_sum]
  unfold Cert.Spec.meanOf Cert.Spec.colSum
  exact congrArg (fun s => Ideal.div s Cert.Spec.nrows) (Finset.sum_congr rfl fun n _ => y_eq m ρ c n j)

/-- The variance row is `y`'s variance in the mean-of-squares form. -/
theorem var_eq (c : Dev nD) (j : Fin 128) :
    Arr.var (V4 (F := Ideal) m ρ) c (ix2 (0 : Fin 1) j) = Cert.Spec.varK (yA m c) j := by
  rw [var_row, stats_V3, Cert.KernelIdeal.StatsRegion.stats_sum, Cert.KernelIdeal.StatsRegion.stats_sumsq]
  unfold Cert.Spec.varK Cert.Spec.meanOf Cert.Spec.colSum Cert.Spec.colSumSq
  have h1 : ∑ n : Fin 100000, (Arr.agg (V2 (F := Ideal) m ρ) c (ix2 n j) + Arr.bias (V2 (F := Ideal) m ρ) c (ix2 (0 : Fin 1) j))
      = ∑ n : Fin 100000, yA m c (ix2 n j) := Finset.sum_congr rfl fun n _ => y_eq m ρ c n j
  have h2 : ∑ n : Fin 100000, (Arr.agg (V2 (F := Ideal) m ρ) c (ix2 n j) + Arr.bias (V2 (F := Ideal) m ρ) c (ix2 (0 : Fin 1) j))
        * (Arr.agg (V2 (F := Ideal) m ρ) c (ix2 n j) + Arr.bias (V2 (F := Ideal) m ρ) c (ix2 (0 : Fin 1) j))
      = ∑ n : Fin 100000, yA m c (ix2 n j) * yA m c (ix2 n j) := Finset.sum_congr rfl fun n _ => by rw [y_eq]
  rw [h1, h2]

/-- The result buffer's entry: the common final formula at `y`, its column mean and its mean-of-squares variance. -/
theorem result_entry (c : Dev nD) (n : Fin 100000) (j : Fin 128) :
    (W5 (F := Ideal) m ρ c (Proc.devRef .tc main_v62) : S100000x128.Idx → EReal) (ix2 n j)
      = Cert.Spec.outOf (yA m c) (xA m c) (Cert.Spec.meanOf (yA m c)) (Cert.Spec.varK (yA m c))
          (fun q => gA m c (ix1 q)) (fun q => tA m c (ix1 q)) n j := by
  have h5 : (W5 (F := Ideal) m ρ c (Proc.devRef .tc main_v62) : S100000x128.Idx → EReal) = Arr.finalOut (V4 (F := Ideal) m ρ) c :=
    W5_arr m ρ c 7
  rw [h5, Cert.KernelIdeal.FinalizeRegion.out_entry, agg_V4, bias_V4, y_eq, mean_eq, var_eq, gamma_row, beta_row, xin_V4]
  rfl

end Cert.KernelIdeal.KernelValue

end
-- ==== Proof.FiniteY.lean ====
/-
  Finite inputs give a finite `y`.

  `y = a + bias`, where `a = scatter-add (gathered, scaled rows of h) + h · (1 / deg)`, `h = x · w`,
  `deg = (number of edges arriving at the row) + 1` and the scale of an edge is `deg^(-1/2)` at its source times
  `deg^(-1/2)` at its target. A gather reads entries of its operand, so it keeps "every entry is a real number"; a
  scatter-add adds to each entry a finite sum of update entries; sums and products of reals are reals; and `deg` is a
  real number at least 1, so its reciprocal and its reciprocal square root are real. Hence every entry of `y` is a real
  number as soon as every entry of `x`, `w` and the bias is.
-/
import proofs.«172055_j41918880809282_1_alg».proof.Defs
import proofs.«172055_j41918880809282_1_alg».proof.Proof.Gen.ReferenceIdeal.Run
import proofs.«172055_j41918880809282_1_alg».proof.Proof.Gen.ReferenceIdeal.Read
import proofs.«172055_j41918880809282_1_alg».proof.Proof.Spec

noncomputable section

namespace Cert.ReferenceIdeal.FiniteY

open Idealize.ShloMosaic Idealize.ShloMosaic.TcCoe Idealize.SL.Sem Idealize.ShloMosaic.ValueIdx
open Cert.ReferenceIdeal Cert.ReferenceIdeal.Read

/-! ### Real numbers inside the extended reals -/

/-- The sum of two real numbers is a real number. -/
theorem real_add {a b : EReal} (ha : ∃ r : ℝ, a = (r : EReal)) (hb : ∃ r : ℝ, b = (r : EReal)) :
    ∃ r : ℝ, a + b = (r : EReal) := by
  obtain ⟨r, rfl⟩ := ha
  obtain ⟨s, rfl⟩ := hb
  exact ⟨r + s, (EReal.coe_add r s).symm⟩

/-- The product of two real numbers is a real number. -/
theorem real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

/-- A finite sum of real numbers is a real number. -/
theorem real_sum {ι : Type} (s : Finset ι) (f : ι → EReal) (hf : ∀ j ∈ s, ∃ r : ℝ, f j = (r : EReal)) :
    ∃ r : ℝ, ∑ j ∈ s, f j = (r : EReal) := by
  classical
  induction s using Finset.induction_on with
  | empty => exact ⟨0, by rw [Finset.sum_empty, EReal.coe_zero]⟩
  | insert a s ha ih =>
    rw [Finset.sum_insert ha]
    exact real_add (hf a (Finset.mem_insert_self a s)) (ih fun j hj => hf j (Finset.mem_insert_of_mem hj))

/-- A finite sum of nonnegative real numbers is a nonnegative real number. -/
theorem nonneg_sum {ι : Type} (s : Finset ι) (f : ι → EReal) (hf : ∀ j ∈ s, ∃ r : ℝ, 0 ≤ r ∧ f j = (r : EReal)) :
    ∃ r : ℝ, 0 ≤ r ∧ ∑ j ∈ s, f j = (r : EReal) := by
  classical
  induction s using Finset.induction_on with
  | empty => exact ⟨0, le_refl 0, by rw [Finset.sum_empty, EReal.coe_zero]⟩
  | insert a s ha ih =>
    rw [Finset.sum_insert ha]
    obtain ⟨r, hr, er⟩ := hf a (Finset.mem_insert_self a s)
    obtain ⟨t, ht, et⟩ := ih fun j hj => hf j (Finset.mem_insert_of_mem hj)
    exact ⟨r + t, add_nonneg hr ht, by rw [er, et, EReal.coe_add]⟩

/-- The reciprocal square root of a real number at least one is a real number. -/
theorem rsqrt_real {r : ℝ} (hr : 1 ≤ r) : ∃ t : ℝ, Ideal.rsqrt (r : EReal) = (t : EReal) := by
  refine ⟨(Real.sqrt r)⁻¹, ?_⟩
  rw [Ideal.rsqrt_coe, if_neg (by linarith), if_neg (by linarith)]

/-- One over a real number at least one is a real number. -/
theorem one_div_real {r : ℝ} (hr : 1 ≤ r) : ∃ t : ℝ, Ideal.div 1 (r : EReal) = (t : EReal) := by
  refine ⟨1 / r, ?_⟩
  rw [Ideal.div_coe (by linarith), one_mul]

/-- The f32 word of one denotes the real number one. -/
theorem word_one : Ideal.ofBits .f32 0x3F800000#32 = ((1 : ℝ) : EReal) := by
  simp [Ideal.ofBits, Ideal.ieee, -EReal.coe_mul]; norm_num

/-- The f32 word of positive zero denotes the real number zero. -/
theorem word_zero : Ideal.ofBits .f32 0x00000000#32 = ((0 : ℝ) : EReal) := by
  simp [Ideal.ofBits, Ideal.ieee]

/-! ### Gathers and scatter-adds keep the entries real -/

/-- A scatter-add of real updates into a real operand has real entries: each entry is the operand's plus a finite
    sum of update entries. -/
theorem scatterAdd_real {s si su : Shape} {φ : FTy} {w : Nat} (d : ScatterDims s si su) (v : FVec Ideal s φ)
    (idx : IVec si w) (upd : FVec Ideal su φ) (hv : ∀ i, ∃ r : ℝ, v i = (r : EReal))
    (hu : ∀ j, ∃ r : ℝ, upd j = (r : EReal)) (i : s.Idx) :
    ∃ r : ℝ, Host.scatterAdd (F := Ideal) d v idx upd i = (r : EReal) := by
  simp only [Host.scatterAdd, Ideal.hostScatterAdd_def, Ideal.hostScatterAdd]
  exact real_add (hv i) (real_sum _ _ fun j _ => hu j)

/-- A scatter-add of nonnegative real updates into a nonnegative real operand has nonnegative real entries. -/
theorem scatterAdd_nonneg {s si su : Shape} {φ : FTy} {w : Nat} (d : ScatterDims s si su) (v : FVec Ideal s φ)
    (idx : IVec si w) (upd : FVec Ideal su φ) (hv : ∀ i, ∃ r : ℝ, 0 ≤ r ∧ v i = (r : EReal))
    (hu : ∀ j, ∃ r : ℝ, 0 ≤ r ∧ upd j = (r : EReal)) (i : s.Idx) :
    ∃ r : ℝ, 0 ≤ r ∧ Host.scatterAdd (F := Ideal) d v idx upd i = (r : EReal) := by
  simp only [Host.scatterAdd, Ideal.hostScatterAdd_def, Ideal.hostScatterAdd]
  obtain ⟨r, hr, er⟩ := hv i
  obtain ⟨t, ht, et⟩ := nonneg_sum (Finset.univ.filter (fun j => d.resultIdx? j idx = some i)) upd fun j _ => hu j
  exact ⟨r + t, add_nonneg hr ht, by rw [er, et, EReal.coe_add]⟩

/-- A gather reads entries of its operand, so it keeps them real. -/
theorem gather_real {s si t : Shape} {w : Nat} (d : GatherDims s si t) (v : s.Idx → EReal) (idx : IVec si w)
    (hv : ∀ i, ∃ r : ℝ, v i = (r : EReal)) (j : t.Idx) : ∃ r : ℝ, Host.gather d v idx j = (r : EReal) :=
  hv (d.operandIdx j idx)

/-! ### The stages, in program order -/

variable (x : (⟨S100000x128, .f32⟩ : BufTy).Contents (Elt Ideal)) (ei : (⟨S2x600000, .i32⟩ : BufTy).Contents (Elt Ideal)) (W : (⟨S128x128, .f32⟩ : BufTy).Contents (Elt Ideal)) (b : (⟨S128, .f32⟩ : BufTy).Contents (Elt Ideal))

/-- `h = x · w`: each entry is a sum of 128 products of real numbers. -/
theorem h_real (hx : ∀ i, ∃ r : ℝ, x i = (r : EReal)) (hW : ∀ i, ∃ r : ℝ, W i = (r : EReal)) (i : S100000x128.Idx) :
    ∃ r : ℝ, val_main_v4 (F := Ideal) x W i = (r : EReal) := by
  rw [val_main_v4_apply]
  exact real_sum _ _ fun k _ => real_mul (hx _) (hW _)

/-- The updates of the degree count are all one. -/
theorem v5_one (i : S600000.Idx) : val_main_v5 (F := Ideal) i = ((1 : ℝ) : EReal) := by
  rw [val_main_v5_apply, val_main_cst_apply, Ideal.ofBits_def, word_one]

/-- The degree count starts from zero. -/
theorem v6_zero (i : S100000.Idx) : val_main_v6 (F := Ideal) i = ((0 : ℝ) : EReal) := by
  rw [val_main_v6_apply, val_main_cst_0_apply, Ideal.ofBits_def, word_zero]

/-- The self loop adds one to every row's count. -/
theorem v9_one (i : S100000.Idx) : val_main_v9 (F := Ideal) i = ((1 : ℝ) : EReal) := by
  rw [val_main_v9_apply, val_main_cst_1_apply, Ideal.ofBits_def, word_one]

/-- The number of edges arriving at a row is a nonnegative real number. -/
theorem v8_nonneg (i : S100000.Idx) : ∃ r : ℝ, 0 ≤ r ∧ val_main_v8 (F := Ideal) ei i = (r : EReal) := by
  unfold val_main_v8
  exact scatterAdd_nonneg _ _ _ _ (fun i => ⟨0, le_refl 0, v6_zero i⟩) (fun j => ⟨1, zero_le_one, v5_one j⟩) i

/-- `deg` is a real number at least one. -/
theorem deg_ge_one (i : S100000.Idx) : ∃ r : ℝ, 1 ≤ r ∧ val_main_v10 (F := Ideal) ei i = (r : EReal) := by
  obtain ⟨r, hr, er⟩ := v8_nonneg ei i
  refine ⟨r + 1, by linarith, ?_⟩
  rw [val_main_v10_apply, Ideal.addf_def, er, v9_one, EReal.coe_add]

/-- `deg^(-1/2)` is a real number. -/
theorem dinv_real (i : S100000.Idx) : ∃ r : ℝ, val_main_v11 (F := Ideal) ei i = (r : EReal) := by
  obtain ⟨r, hr, er⟩ := deg_ge_one ei i
  rw [val_main_v11_apply, Ideal.hostUnary_rsqrt_def, er]
  exact rsqrt_real hr

/-- `deg^(-1/2)` gathered at the sources of the edges. -/
theorem v18_real (i : S600000.Idx) : ∃ r : ℝ, val_main_v18 (F := Ideal) ei i = (r : EReal) := by
  unfold val_main_v18
  exact gather_real _ _ _ (dinv_real ei) i

/-- `deg^(-1/2)` gathered at the targets of the edges. -/
theorem v25_real (i : S600000.Idx) : ∃ r : ℝ, val_main_v25 (F := Ideal) ei i = (r : EReal) := by
  unfold val_main_v25
  exact gather_real _ _ _ (dinv_real ei) i

/-- The scale of an edge. -/
theorem v26_real (i : S600000.Idx) : ∃ r : ℝ, val_main_v26 (F := Ideal) ei i = (r : EReal) := by
  rw [val_main_v26_apply, Ideal.mulf_def]
  exact real_mul (v18_real ei i) (v25_real ei i)

/-- The rows of `h` gathered at the sources of the edges. -/
theorem v33_real (hx : ∀ i, ∃ r : ℝ, x i = (r : EReal)) (hW : ∀ i, ∃ r : ℝ, W i = (r : EReal)) (i : S600000x128.Idx) :
    ∃ r : ℝ, val_main_v33 (F := Ideal) x ei W i = (r : EReal) := by
  unfold val_main_v33
  exact gather_real _ _ _ (h_real x W hx hW) i

/-- The scale of an edge, repeated along the channels. -/
theorem v35_real (i : S600000x128.Idx) : ∃ r : ℝ, val_main_v35 (F := Ideal) ei i = (r : EReal) := by
  rw [val_main_v35_apply, val_main_v34_apply]
  exact v26_real ei _

/-- The scaled row an edge carries. -/
theorem v36_real (hx : ∀ i, ∃ r : ℝ, x i = (r : EReal)) (hW : ∀ i, ∃ r : ℝ, W i = (r : EReal)) (i : S600000x128.Idx) :
    ∃ r : ℝ, val_main_v36 (F := Ideal) x ei W i = (r : EReal) := by
  rw [val_main_v36_apply, Ideal.mulf_def]
  exact real_mul (v33_real x ei W hx hW i) (v35_real ei i)

/-- The aggregation starts from zero. -/
theorem v37_zero (i : S100000x128.Idx) : val_main_v37 (F := Ideal) i = ((0 : ℝ) : EReal) := by
  rw [val_main_v37_apply, val_main_cst_7_apply, Ideal.ofBits_def, word_zero]

/-- The scaled rows summed at the targets of the edges. -/
theorem v39_real (hx : ∀ i, ∃ r : ℝ, x i = (r : EReal)) (hW : ∀ i, ∃ r : ℝ, W i = (r : EReal)) (i : S100000x128.Idx) :
    ∃ r : ℝ, val_main_v39 (F := Ideal) x ei W i = (r : EReal) := by
  unfold val_main_v39
  exact scatterAdd_real _ _ _ _ (fun i => ⟨0, v37_zero i⟩) (v36_real x ei W hx hW) i

/-- The numerator of `1 / deg` is one. -/
theorem v40_one (i : S100000.Idx) : val_main_v40 (F := Ideal) i = ((1 : ℝ) : EReal) := by
  rw [val_main_v40_apply, val_main_cst_8_apply, Ideal.ofBits_def, word_one]

/-- `1 / deg` is a real number. -/
theorem v41_real (i : S100000.Idx) : ∃ r : ℝ, val_main_v41 (F := Ideal) ei i = (r : EReal) := by
  obtain ⟨r, hr, er⟩ := deg_ge_one ei i
  rw [val_main_v41_apply, Ideal.hostDivf_def, er, v40_one, EReal.coe_one]
  exact one_div_real hr

/-- `1 / deg`, repeated along the channels. -/
theorem v43_real (i : S100000x128.Idx) : ∃ r : ℝ, val_main_v43 (F := Ideal) ei i = (r : EReal) := by
  rw [val_main_v43_apply, val_main_v42_apply]
  exact v41_real ei _

/-- The self-loop term `h · (1 / deg)`. -/
theorem v44_real (hx : ∀ i, ∃ r : ℝ, x i = (r : EReal)) (hW : ∀ i, ∃ r : ℝ, W i = (r : EReal)) (i : S100000x128.Idx) :
    ∃ r : ℝ, val_main_v44 (F := Ideal) x ei W i = (r : EReal) := by
  rw [val_main_v44_apply, Ideal.mulf_def]
  exact real_mul (h_real x W hx hW i) (v43_real ei i)

/-- The aggregated features. -/
theorem v45_real (hx : ∀ i, ∃ r : ℝ, x i = (r : EReal)) (hW : ∀ i, ∃ r : ℝ, W i = (r : EReal)) (i : S100000x128.Idx) :
    ∃ r : ℝ, val_main_v45 (F := Ideal) x ei W i = (r : EReal) := by
  rw [val_main_v45_apply, Ideal.addf_def]
  exact real_add (v39_real x ei W hx hW i) (v44_real x ei W hx hW i)

/-- The bias, repeated along the rows. -/
theorem v47_real (hb : ∀ i, ∃ r : ℝ, b i = (r : EReal)) (i : S100000x128.Idx) :
    ∃ r : ℝ, val_main_v47 (F := Ideal) b i = (r : EReal) := by
  rw [val_main_v47_apply, val_main_v46_apply]
  exact hb _

/-- Every entry of `y` is a real number when every entry of the input, the weights and the bias is. -/
theorem y_real (hx : ∀ i, ∃ r : ℝ, x i = (r : EReal)) (hW : ∀ i, ∃ r : ℝ, W i = (r : EReal)) (hb : ∀ i, ∃ r : ℝ, b i = (r : EReal))
    (n : Fin 100000) (c : Fin 128) : ∃ r : ℝ, val_main_v48 (F := Ideal) x ei W b (ix2 n c) = (r : EReal) := by
  rw [val_main_v48_apply, Ideal.addf_def]
  exact real_add (v45_real x ei W hx hW _) (v47_real b hb _)

end Cert.ReferenceIdeal.FiniteY

end
-- ==== Proof.FiniteInputs.lean ====
/-
  The precondition read: every entry of each float input is a real number.

  The precondition is the conjunction, input by input, of "for all entries, |entry| < +∞" (an all-reduction of a
  pointwise comparison against the word of +∞). Over the extended reals `|v| < +∞` says that `v` is neither infinity,
  that is, a real number.
-/
import proofs.«172055_j41918880809282_1_alg».proof.Pre_finite_inputs
import Idealize.ShloMosaic.PureOps.Ideal
import Idealize.ShloMosaic.Lib.ValueIdx
import Idealize.ShloMosaic.Lib.ReduceAll

noncomputable section

namespace Cert.FiniteInputs

open Idealize.ShloMosaic Idealize.ShloMosaic.ValueIdx Cert.Pre_finite_inputs

/-- The word `0x7F800000` (sign 0, exponent all ones, fraction 0) denotes `+∞`. -/
theorem ofBits_inf : Ideal.ofBits .f32 0x7F800000#32 = (⊤ : EReal) := by simp [Ideal.ofBits, Ideal.ieee]

/-- An extended real whose absolute value `max v (-v)` is strictly below `+∞` is a real number: at `⊥` and at `⊤`
    the absolute value is `⊤`, which is not strictly below itself; the remaining case is a real. -/
theorem real_of_abs_lt_top (v : EReal) (h : Ideal.cmp .olt (max v (-v)) ⊤ = 1#1) : ∃ r : ℝ, v = (r : EReal) := by
  induction v using EReal.rec with
  | bot => simp [Ideal.cmp] at h
  | coe r => exact ⟨r, rfl⟩
  | top => simp [Ideal.cmp] at h

/-- Over any shape: if the conjunction over all entries of the pointwise test `|v i| < +∞` is 1, every entry of `v` is
    a real number. The conjunction being 1 gives the test at each entry; the test at an entry is the strict comparison
    of `max (v i) (-(v i))` with the value of the word of `+∞`, which is `⊤`. -/
theorem real_of_all {s : Shape} {axes : List (Fin s.rank)} (v : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf v) (broadcastInDim s ![] hb (constant (F := Ideal) S_ .f32 0x7F800000#32))) init hr hu ix0
          = 1#1) (i : s.Idx) : ∃ r : ℝ, v i = (r : EReal) := by
  haveI : Subsingleton S_.Idx := ⟨fun a b => funext fun d => d.elim0⟩
  have hi := Host.reduce_andi_all _ init hr hu ix0 e i
  refine real_of_abs_lt_top (v i) ?_
  rw [← ofBits_inf]
  exact hi

variable [Cert.Pre_finite_inputs.Facts]

/-- Where the precondition holds, the input, the weights and the bias have only real entries. -/
theorem real_of_pre (x : FVec Ideal S100000x128 .f32) (ei : IVec S2x600000 32) (W : FVec Ideal S128x128 .f32)
    (b γ β : FVec Ideal S128 .f32) (h : Cert.Pre_finite_inputs.fn (F := Ideal) x ei W b γ β = fun _ => 1#1) :
    (∀ i, ∃ r : ℝ, x i = (r : EReal)) ∧ (∀ i, ∃ r : ℝ, W i = (r : EReal)) ∧ (∀ i, ∃ r : ℝ, b i = (r : EReal)) := by
  -- the precondition at the one scalar index: ((((all x ∧ all W) ∧ all b) ∧ all γ) ∧ all β) = 1
  have h0 := congrFun h ix0
  dsimp only [Cert.Pre_finite_inputs.fn, Cert.Pre_finite_inputs.fn_part1] at h0
  -- peel the conjunction from the outside: β, then γ, then b, then W and x
  obtain ⟨h1, -⟩ := IntOp.andi_eq_one.1 h0
  obtain ⟨h2, -⟩ := IntOp.andi_eq_one.1 h1
  obtain ⟨h3, hb⟩ := IntOp.andi_eq_one.1 h2
  obtain ⟨hx, hW⟩ := IntOp.andi_eq_one.1 h3
  exact ⟨real_of_all x _ _ _ _ hx, real_of_all W _ _ _ _ hW, real_of_all b _ _ _ _ hb⟩

end Cert.FiniteInputs

end
-- ==== Proof.Bridge.lean ====
/-
  The two results are one array.

  Both programs end at the common final formula of the array `y`, its column mean, a variance, the scale, the shift and
  the input; they differ only in the variance's form. Under the precondition every entry of the input, the weights and
  the bias is a real number, hence every entry of `y` is, and for real entries the mean of the squares minus the square
  of the mean IS the mean of the squared deviations. So the results agree entry by entry.
-/
import proofs.«172055_j41918880809282_1_alg».proof.Proof.KernelValue
import proofs.«172055_j41918880809282_1_alg».proof.Proof.RefValue
import proofs.«172055_j41918880809282_1_alg».proof.Proof.Moments
import proofs.«172055_j41918880809282_1_alg».proof.Proof.FiniteY
import proofs.«172055_j41918880809282_1_alg».proof.Proof.FiniteInputs

set_option maxRecDepth 16384

noncomputable section

namespace Cert.KernelIdeal.Bridge

open Idealize.ShloMosaic Idealize.ShloMosaic.TcCoe Idealize.SL.Sem Idealize.ShloMosaic.ValueIdx
open Cert.KernelIdeal Cert.KernelIdeal.Gen Cert.KernelIdeal.KernelValue

variable [Cert.Pre_finite_inputs.Facts]
variable (m : (ℓ : Loc nD τ sig) → Buf (Elt Ideal) ℓ) (ρ : Dev nD → PrngReg)

/-- Under the precondition every entry of `y` is a real number. -/
theorem y_real (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) = fun _ => 1#1)
    (n : Fin 100000) (q : Fin 128) : ∃ r : ℝ, yA m c (ix2 n q) = (r : EReal) := by
  obtain ⟨hx, hW, hb⟩ := Cert.FiniteInputs.real_of_pre _ _ _ _ _ _ hpre
  exact Cert.ReferenceIdeal.FiniteY.y_real (xA m c) (eA m c) (wA m c) (bA m c) hx hW hb n q

/-- Under the precondition the plain program's result of the launched arguments is what the tiled program leaves in
    its result buffer. -/
theorem results_agree (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) = fun _ => 1#1) :
    (Cert.ReferenceIdeal.Read.val_main_v76 (F := Ideal) (xA m c) (eA m c) (wA m c) (bA m c) (gA m c) (tA m c) : S100000x128.Idx → EReal)
      = (W5 (F := Ideal) m ρ c (Proc.devRef .tc main_v62) : S100000x128.Idx → EReal) := by
  funext i
  obtain ⟨n, j, rfl⟩ : ∃ (n : Fin 100000) (j : Fin 128), i = ix2 n j := ⟨i 0, i 1, eq_ix2 i⟩
  rw [Cert.ReferenceIdeal.RefValue.ref_entry, result_entry]
  have hv : Cert.Spec.varR (yA m c) = Cert.Spec.varK (yA m c) :=
    funext fun q => (Cert.Moments.varK_eq_varR (yA m c) (y_real m c hpre) q).symm
  rw [hv]

end Cert.KernelIdeal.Bridge

end
-- ==== Proof.lean ====
/-
  A residual graph-convolution block, tiled, against its plain form.

  Both programs compute `h = x · w`, aggregate it over the edges with symmetric degree normalization and a self loop,
  add the bias (`y`), normalize each channel of `y` by its mean and variance over the 100000 rows, scale, shift, clamp
  at zero, add `x` and clamp again. The tiled program does the product, the two column sums (of `y` and of `y²`) and
  the final pointwise pass in three regions over 20 row tiles, with the aggregation on the host between them, and takes
  the variance as the mean of the squares minus the square of the mean; the plain program takes the mean of the squared
  deviations. Over the extended reals the two agree once `y` has only real entries, which the precondition (every float
  input finite) gives, a row's degree being a count plus one. The three frames are the generated frame certificates (the
  plain program's is its run with the result dropped); no operation was rewritten by the idealization, so that claim is
  trivial.
-/
import proofs.«172055_j41918880809282_1_alg».proof.Defs
import proofs.«172055_j41918880809282_1_alg».proof.Proof.Gen.Kernel
import proofs.«172055_j41918880809282_1_alg».proof.Proof.Gen.Kernel.Skeleton
import proofs.«172055_j41918880809282_1_alg».proof.Proof.Gen.Kernel.Launch
import proofs.«172055_j41918880809282_1_alg».proof.Proof.Gen.Kernel.Points
import proofs.«172055_j41918880809282_1_alg».proof.Proof.Gen.Kernel.Frame
import proofs.«172055_j41918880809282_1_alg».proof.Proof.Gen.KernelIdeal
import proofs.«172055_j41918880809282_1_alg».proof.Proof.Gen.KernelIdeal.Skeleton
import proofs.«172055_j41918880809282_1_alg».proof.Proof.Gen.KernelIdeal.Launch
import proofs.«172055_j41918880809282_1_alg».proof.Proof.Gen.KernelIdeal.Points
import proofs.«172055_j41918880809282_1_alg».proof.Proof.Gen.KernelIdeal.Frame
import proofs.«172055_j41918880809282_1_alg».proof.Proof.Gen.ReferenceIdeal
import proofs.«172055_j41918880809282_1_alg».proof.Proof.Gen.ReferenceIdeal.Run
import proofs.«172055_j41918880809282_1_alg».proof.Proof.Gen.ReferenceIdeal.Read
import proofs.«172055_j41918880809282_1_alg».proof.Proof.Gen.Pre_finite_inputs
import proofs.«172055_j41918880809282_1_alg».proof.Proof.KernelRun
import proofs.«172055_j41918880809282_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The plain program's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs run, and the plain program's result is what the tiled program
    leaves in its result buffer. -/
theorem algebraic : Cert.algebraic_KernelIdeal_ReferenceIdeal := by
  intro m ρ m' ρ' hpre hagree
  refine ⟨fun c => Cert.KernelIdeal.Gen.W5 (F := Ideal) m ρ c (Proc.devRef .tc Cert.KernelIdeal.main_v62),
    Cert.KernelIdeal.Gen.run_named m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v76_eq, (hagree c).1, (hagree c).2.1, (hagree c).2.2.1, (hagree c).2.2.2.1,
    (hagree c).2.2.2.2.1, (hagree c).2.2.2.2.2]
  exact Cert.KernelIdeal.Bridge.results_agree m ρ c (hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
